-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn_part1 {F : FTy → Type} [FloatOps F] (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  main_v18

def fn {F : FTy → Type} [FloatOps F] (main_arg0 : FVec F S8192x128 .f32) (main_arg1 : FVec F S8192x128 .f32) (main_arg2 : FVec F S8192x128 .f32) (main_arg3 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S8192x128 .f32 := Host.absf main_arg3
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_v13 main_v16
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 30
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S8192x128, .bf16⟩
  | .hbm, ⟨25, _⟩ => ⟨S8192x128, .f32⟩
  | .hbm, ⟨26, _⟩ => ⟨S8192x128, .f32⟩
  | .hbm, ⟨27, _⟩ => ⟨S8192x128, .bf16⟩
  | .hbm, ⟨28, _⟩ => ⟨S8192x8192, .f32⟩
  | .hbm, ⟨29, _⟩ => ⟨S8192x8192, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x1024, .f32⟩
  | .local _ .vmem, ⟨11, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v10) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩

abbrev nBuf : Space → Nat
  | .hbm => 64
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S128x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x128, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x128, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S128x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .i1⟩
  | .hbm, ⟨60, _⟩ => ⟨S_, .f32⟩
  | .hbm, ⟨61, _⟩ => ⟨S_, .f32⟩
  | .hbm, ⟨62, _⟩ => ⟨S8192x8192, .f32⟩
  | .hbm, ⟨63, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_call2_v0 : Ref sig .tc := ⟨.hbm, 32, rfl⟩
abbrev main_call2_v1 : Ref sig .tc := ⟨.hbm, 33, rfl⟩
abbrev main_v16 : Ref sig .tc := ⟨.hbm, 34, rfl⟩
abbrev main_call3_v0 : Ref sig .tc := ⟨.hbm, 35, rfl⟩
abbrev main_call3_cst : Ref sig .tc := ⟨.hbm, 36, rfl⟩
abbrev main_call3_v1 : Ref sig .tc := ⟨.hbm, 37, rfl⟩
abbrev main_call3_v2 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_call4_v0 : Ref sig .tc := ⟨.hbm, 43, rfl⟩
abbrev main_call4_cst : Ref sig .tc := ⟨.hbm, 44, rfl⟩
abbrev main_call4_v1 : Ref sig .tc := ⟨.hbm, 45, rfl⟩
abbrev main_call4_v2 : Ref sig .tc := ⟨.hbm, 46, rfl⟩
abbrev main_v20 : Ref sig .tc := ⟨.hbm, 47, rfl⟩
abbrev main_cst_4 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_call5_v0 : Ref sig .tc := ⟨.hbm, 61, rfl⟩
abbrev main_call5_v1 : Ref sig .tc := ⟨.hbm, 62, rfl⟩
abbrev main_v31 : Ref sig .tc := ⟨.hbm, 63, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Body0.lean ====
/-
  Region 0 of the kernel program: the cosine-threshold body run once on whole staging buffers.

  The body reads its two operand blocks x (1024 rows of 128) and y (1024 rows of 128), forms the 1024 x 1024 block of
  inner products x yᵀ on the matrix unit from a zero accumulator, and stores, entry by entry, zero where the inner
  product is below the threshold and the inner product itself elsewhere.  This module states what one run of the body
  leaves in the output staging buffer as a function of the two operand blocks, proves the body's triple, and lays out the
  pipeline's proof data at an arbitrary region-entry valuation V: the operand windows keep their blocks, the output
  window holds the body's result, nothing is owed and the invariant is the untouched scoped rest.
-/
import proofs.«130093_j9259949490946_1_alg».proof.Proof.Gen.Kernel.Launch
import proofs.«130093_j9259949490946_1_alg».proof.Proof.Gen.Kernel.Skeleton
import proofs.«130093_j9259949490946_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at grid point t, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's current staging buffer holds its block at every point, refetched there or not: the body leaves
    an operand block as it found it, and between fetches the block index does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole operand block and the whole output block as rectangles. -/
abbrev rIn0 : Rect S1024x128 := Rect.unit (s := S1024x128) ![0, 0] S1024x128.size inb_S1024x128_S1024x128_0_0
abbrev rOut0 : Rect S1024x1024 := Rect.unit (s := S1024x1024) ![0, 0] S1024x1024.size inb_S1024x1024_S1024x1024_0_0

/-- What one run of the body leaves in the output staging buffer: the thresholded inner products of the two operand
    blocks, stored over the whole block. -/
def out0_2 (x0 : Vec F S1024x128 .bf16) (x1 : Vec F S1024x128 .bf16) : Vec F S1024x1024 .f32 :=
  View.canon [⟨rOut0, k0_pay1 (View.ld x0 rIn0) (View.ld x1 rIn0)⟩]

/-- The one store covers the output block. -/
theorem cover0_2 (p0 : Vec F S1024x1024 .f32) (y : S1024x1024.Idx) :
    ∃ pc ∈ ([⟨rOut0, p0⟩] : List (View.Piece (Elt F) S1024x1024 .f32)), y ∈ pc.1.set :=
  View.cover_of_tiled [⟨rOut0, p0⟩] S1024x1024.size (by rfl) y

set_option maxHeartbeats 1000000 in
/-- The body's triple: from the operand buffers at x0 and x1 and the output buffer at anything, the body runs to the
    continuation with the operands as they were and the output at out0_2 x0 x1. -/
theorem sound_kernel0 (c : Dev nD) (E : Set ℕ) (i : grid0.Coords)
    (arg2 : Memref sig .tc .vmem S1024x128 .bf16) (harg2 : arg2.IsWhole)
    (arg3 : Memref sig .tc .vmem S1024x128 .bf16) (harg3 : arg3.IsWhole)
    (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__cos_threshold_kernel i arg2 harg2 arg3 harg3 arg4 harg4) K := by
  simp only [cc0__cos_threshold_kernel_eq_skeleton]; unfold cc0__cos_threshold_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c at the entry valuation V; the operand arrays are held at the shares q0, q1. -/
def dat0 (q0 q1 : PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => q0
    | ⟨1, _⟩ => q1
    | ⟨2, _⟩ => fullShare
  owed _ := 0

variable (q0 q1 : PosShare TreeShare)

theorem A_eq0 (c : Dev nD) (w : Fin cfg0.W) : (dat0 V q0 q1 c).A w = V c (Pipeline.arrRef spec0 w) := by
  dsimp only [dat0]

theorem after0_0 (c : Dev nD) (t : Fin cfg0.N) : (dat0 V q0 q1 c).after 0 t = iblk0 V c 0 t := by dsimp only [dat0]
theorem after0_1 (c : Dev nD) (t : Fin cfg0.N) : (dat0 V q0 q1 c).after 1 t = iblk0 V c 1 t := by dsimp only [dat0]
theorem after0_2 (c : Dev nD) (t : Fin cfg0.N) : (dat0 V q0 q1 c).after 2 t = out0_2 (iblk0 V c 0 t) (iblk0 V c 1 t) := by dsimp only [dat0]

theorem before0_0 (c : Dev nD) (t : Fin cfg0.N) (d) : (dat0 V q0 q1 c).before 0 t d = iblk0 V c 0 t :=
  before0_0_of V (dat0 V q0 q1 c) (A_eq0 V q0 q1 c 0) (after0_0 V q0 q1 c) t d
theorem before0_1 (c : Dev nD) (t : Fin cfg0.N) (d) : (dat0 V q0 q1 c).before 1 t d = iblk0 V c 1 t :=
  before0_1_of V (dat0 V q0 q1 c) (A_eq0 V q0 q1 c 1) (after0_1 V q0 q1 c) t d

/-- What the body is called with at point t, the windows one by one, -/
def bodyPre0 (c : Dev nD) (t : Fin cfg0.N) : sProp 𝕄 :=
  iprop((dat0 V q0 q1 c).Φ t.castSucc ∗ (dat0 V q0 q1 c).owesAt () t.castSucc
    ∗ (∃ d, owns (c : Thread nD τ) (st0_0 t) fullShare ((dat0 V q0 q1 c).before 0 t d))
    ∗ (∃ d, owns (c : Thread nD τ) (st0_1 t) fullShare ((dat0 V q0 q1 c).before 1 t d))
    ∗ (∃ d, owns (c : Thread nD τ) (st0_2 t) fullShare ((dat0 V q0 q1 c).before 2 t d)))

/-- and what it returns. -/
def bodyPost0 (c : Dev nD) (t : Fin cfg0.N) : sProp 𝕄 :=
  iprop((dat0 V q0 q1 c).Φ t.succ ∗ (dat0 V q0 q1 c).owesAt () t.succ
    ∗ owns (c : Thread nD τ) (st0_0 t) fullShare ((dat0 V q0 q1 c).after 0 t)
    ∗ owns (c : Thread nD τ) (st0_1 t) fullShare ((dat0 V q0 q1 c).after 1 t)
    ∗ owns (c : Thread nD τ) (st0_2 t) fullShare ((dat0 V q0 q1 c).after 2 t))

theorem sound_body0 (c : Dev nD) (t : Fin cfg0.N) :
    bodyPre0 V q0 q1 c t ⊢ wp frame (wpE (defs₀ (F := F)) Variants.none c none) Set.univ (bodyAt0 t) (fun _ => bodyPost0 V q0 q1 c t) := by
  unfold bodyPre0 bodyPost0 bodyAt0
  simp only [before0_0, before0_1]
  rw [show (dat0 V q0 q1 c).Φ t.succ = (dat0 V q0 q1 c).Φ t.castSucc from rfl,
    show (dat0 V q0 q1 c).owesAt () t.succ = (dat0 V q0 q1 c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V q0 q1 c) (defs₀ (F := F)) Variants.none () Set.univ := fun t => by
  rw [bigSep_W0, bigSep_W0]
  exact sound_body0 V q0 q1 c t

end Region0

end Cert.Kernel.Hand

end
-- ==== Proof.K.Body1.lean ====
/-
  Region 1 of the kernel program: the cosine-threshold body run once on whole staging buffers.

  The body reads its two operand blocks x (1024 rows of 128) and y (1024 rows of 128), forms the 1024 x 1024 block of
  inner products x yᵀ on the matrix unit from a zero accumulator, and stores, entry by entry, zero where the inner
  product is below the threshold and the inner product itself elsewhere.  This module states what one run of the body
  leaves in the output staging buffer as a function of the two operand blocks, proves the body's triple, and lays out the
  pipeline's proof data at an arbitrary region-entry valuation V: the operand windows keep their blocks, the output
  window holds the body's result, nothing is owed and the invariant is the untouched scoped rest.
-/
import proofs.«130093_j9259949490946_1_alg».proof.Proof.Gen.Kernel.Launch
import proofs.«130093_j9259949490946_1_alg».proof.Proof.Gen.Kernel.Skeleton
import proofs.«130093_j9259949490946_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at grid point t, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's current staging buffer holds its block at every point, refetched there or not: the body leaves
    an operand block as it found it, and between fetches the block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole operand block and the whole output block as rectangles. -/
abbrev rIn1 : Rect S1024x128 := Rect.unit (s := S1024x128) ![0, 0] S1024x128.size inb_S1024x128_S1024x128_0_0
abbrev rOut1 : Rect S1024x1024 := Rect.unit (s := S1024x1024) ![0, 0] S1024x1024.size inb_S1024x1024_S1024x1024_0_0

/-- What one run of the body leaves in the output staging buffer: the thresholded inner products of the two operand
    blocks, stored over the whole block. -/
def out1_2 (x0 : Vec F S1024x128 .bf16) (x1 : Vec F S1024x128 .bf16) : Vec F S1024x1024 .f32 :=
  View.canon [⟨rOut1, k1_pay1 (View.ld x0 rIn1) (View.ld x1 rIn1)⟩]

/-- The one store covers the output block. -/
theorem cover1_2 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

set_option maxHeartbeats 1000000 in
/-- The body's triple: from the operand buffers at x0 and x1 and the output buffer at anything, the body runs to the
    continuation with the operands as they were and the output at out1_2 x0 x1. -/
theorem sound_kernel1 (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__cos_threshold_kernel i arg2 harg2 arg3 harg3 arg4 harg4) K := by
  simp only [cc1__cos_threshold_kernel_eq_skeleton]; unfold cc1__cos_threshold_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core c at the entry valuation V; the operand arrays are held at the shares q0, q1. -/
def dat1 (q0 q1 : PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => q0
    | ⟨1, _⟩ => q1
    | ⟨2, _⟩ => fullShare
  owed _ := 0

variable (q0 q1 : PosShare TreeShare)

theorem A_eq1 (c : Dev nD) (w : Fin cfg1.W) : (dat1 V q0 q1 c).A w = V c (Pipeline.arrRef spec1 w) := by
  dsimp only [dat1]

theorem after1_0 (c : Dev nD) (t : Fin cfg1.N) : (dat1 V q0 q1 c).after 0 t = iblk1 V c 0 t := by dsimp only [dat1]
theorem after1_1 (c : Dev nD) (t : Fin cfg1.N) : (dat1 V q0 q1 c).after 1 t = iblk1 V c 1 t := by dsimp only [dat1]
theorem after1_2 (c : Dev nD) (t : Fin cfg1.N) : (dat1 V q0 q1 c).after 2 t = out1_2 (iblk1 V c 0 t) (iblk1 V c 1 t) := by dsimp only [dat1]

theorem before1_0 (c : Dev nD) (t : Fin cfg1.N) (d) : (dat1 V q0 q1 c).before 0 t d = iblk1 V c 0 t :=
  before1_0_of V (dat1 V q0 q1 c) (A_eq1 V q0 q1 c 0) (after1_0 V q0 q1 c) t d
theorem before1_1 (c : Dev nD) (t : Fin cfg1.N) (d) : (dat1 V q0 q1 c).before 1 t d = iblk1 V c 1 t :=
  before1_1_of V (dat1 V q0 q1 c) (A_eq1 V q0 q1 c 1) (after1_1 V q0 q1 c) t d

/-- What the body is called with at point t, the windows one by one, -/
def bodyPre1 (c : Dev nD) (t : Fin cfg1.N) : sProp 𝕄 :=
  iprop((dat1 V q0 q1 c).Φ t.castSucc ∗ (dat1 V q0 q1 c).owesAt () t.castSucc
    ∗ (∃ d, owns (c : Thread nD τ) (st1_0 t) fullShare ((dat1 V q0 q1 c).before 0 t d))
    ∗ (∃ d, owns (c : Thread nD τ) (st1_1 t) fullShare ((dat1 V q0 q1 c).before 1 t d))
    ∗ (∃ d, owns (c : Thread nD τ) (st1_2 t) fullShare ((dat1 V q0 q1 c).before 2 t d)))

/-- and what it returns. -/
def bodyPost1 (c : Dev nD) (t : Fin cfg1.N) : sProp 𝕄 :=
  iprop((dat1 V q0 q1 c).Φ t.succ ∗ (dat1 V q0 q1 c).owesAt () t.succ
    ∗ owns (c : Thread nD τ) (st1_0 t) fullShare ((dat1 V q0 q1 c).after 0 t)
    ∗ owns (c : Thread nD τ) (st1_1 t) fullShare ((dat1 V q0 q1 c).after 1 t)
    ∗ owns (c : Thread nD τ) (st1_2 t) fullShare ((dat1 V q0 q1 c).after 2 t))

theorem sound_body1 (c : Dev nD) (t : Fin cfg1.N) :
    bodyPre1 V q0 q1 c t ⊢ wp frame (wpE (defs₀ (F := F)) Variants.none c none) Set.univ (bodyAt1 t) (fun _ => bodyPost1 V q0 q1 c t) := by
  unfold bodyPre1 bodyPost1 bodyAt1
  simp only [before1_0, before1_1]
  rw [show (dat1 V q0 q1 c).Φ t.succ = (dat1 V q0 q1 c).Φ t.castSucc from rfl,
    show (dat1 V q0 q1 c).owesAt () t.succ = (dat1 V q0 q1 c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V q0 q1 c) (defs₀ (F := F)) Variants.none () Set.univ := fun t => by
  rw [bigSep_W1, bigSep_W1]
  exact sound_body1 V q0 q1 c t

end Region1

end Cert.Kernel.Hand

end
-- ==== Proof.K.Regs.lean ====
/-
  The two kernel regions of the kernel program as segments of its run, and the program's frame.

  Region 0 reads the two row-normalised tables (two distinct arrays) and writes the first similarity table; region 1 reads
  ONE table through both of its operand windows and writes the second similarity table.  Between the host stretches and the
  regions every unscoped buffer is tracked at a valuation: the one before region 0 is what the host operations computed, a
  region changes it only at its output array, where it leaves what the pipeline's write-backs fold to.  For region 1 the
  one operand array is held whole on entry, split into its two half shares, one per operand window, and joined again on exit;
  both windows leave it as they found it.
-/
import proofs.«130093_j9259949490946_1_alg».proof.Proof.K.Body0
import proofs.«130093_j9259949490946_1_alg».proof.Proof.K.Body1
import proofs.«130093_j9259949490946_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations at the regions' boundaries -/

/-- Region 0's entry contents, read at the TensorCore's references: what the host stretches leave. -/
abbrev ent0 : (c : Dev nD) → (b : Ref sig .tc) → Buf (Elt F) ((c : Thread nD τ).loc b) := fun c b => V5 m c b

/-- Region 0's proof data: both operand arrays held whole. -/
def d0 (c : Dev nD) : Dat τ (Elt F) Unit ℕ (UR sig nD τ) ℕ cfg0 c := dat0 (ent0 m) fullShare fullShare c

/-- What region 0 leaves in its output array: the fold of its write-backs. -/
def res0 (c : Dev nD) : Buf (Elt F) ((c : Thread nD τ).loc main_v14) := (d0 m c).arrAt 2 cfg0.N

/-- The contents after region 0: changed at the output array only. -/
abbrev val1 (c : Dev nD) : Valuation τ sig (Elt F) := Function.update (V5 m c) main_v14 (res0 m c)

/-- Region 1's entry contents at the TensorCore's references. -/
abbrev ent1 : (c : Dev nD) → (b : Ref sig .tc) → Buf (Elt F) ((c : Thread nD τ).loc b) := fun c b => val1 m c b

/-- Region 1's proof data: the one operand array held at a half share by each operand window. -/
def d1 (c : Dev nD) : Dat τ (Elt F) Unit ℕ (UR sig nD τ) ℕ cfg1 c := dat1 (ent1 m) fullShare.left fullShare.right c

/-- What region 1 leaves in its output array. -/
def res1 (c : Dev nD) : Buf (Elt F) ((c : Thread nD τ).loc main_v15) := (d1 m c).arrAt 2 cfg1.N

/-- The contents after region 1. -/
abbrev val2 (c : Dev nD) : Valuation τ sig (Elt F) := Function.update (val1 m c) main_v15 (res1 m c)

/-- What the regions leave in the buffers they may change, in the shape the conditional frame reads it. -/
def outs : Outs (F := F) := fun _ r c =>
  if h : r = main_v14 then h ▸ res0 m c else if h' : r = main_v15 then h' ▸ res1 m c else V5 m c r

theorem V6_eq (c : Dev nD) : V6 m (outs m) c = val1 m c := by
  show Function.update (V5 m c) main_v14 (outs m 6 main_v14 c) = _
  rw [show outs m 6 main_v14 c = res0 m c from by unfold outs; rw [dif_pos rfl]]

theorem V7_eq (c : Dev nD) : V7 m (outs m) c = val2 m c := by
  show Function.update (V6 m (outs m) c) main_v15 (outs m 7 main_v15 c) = _
  rw [V6_eq, show outs m 7 main_v15 c = res1 m c from by unfold outs; rw [dif_neg (by decide), dif_pos rfl]]

/-! ## The proof data family -/

/-- Every pipeline's proof data at its region's entry contents. -/
def pdats : (p : Fin 2) → (c : Dev nD) → Dat τ (Elt F) Unit ℕ (UR sig nD τ) ℕ (cfgs p) c
  | ⟨0, _⟩ => fun c => d0 m c
  | ⟨1, _⟩ => fun c => d1 m c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state and the core owing nothing. -/
abbrev rest (c : Dev nD) : sProp 𝕄 := iprop((∃ r, prngReg c r) ∗ ∃ W, owes (c : Thread nD τ) (0 : CellTallies nD τ sig Unit) W)

/-! ## Region 0: two distinct operand arrays -/

theorem q0_full (c : Dev nD) (w : Fin cfg0.W) : (d0 m c).q w = fullShare := by
  unfold d0 dat0
  match w with
  | ⟨0, _⟩ => rfl
  | ⟨1, _⟩ => rfl
  | ⟨2, _⟩ => rfl

/-- The fold of region 0's write-backs at each of its arrays is the exit valuation there. -/
theorem exit0_arr (c : Dev nD) (w : Fin cfg0.W) : (d0 m c).arrAt w cfg0.N = ent1 m c (Pipeline.arrRef spec0 w) := by
  match w with
  | ⟨0, _⟩ =>
    refine ((d0 m c).arrAt_in 0 rfl _).trans ?_
    show V5 m c main_v10 = Function.update (V5 m c) main_v14 (res0 m c) main_v10
    rw [Function.update_of_ne (StableHlo.devRef_ne_of_ne (by decide) : (Proc.devRef .tc main_v10 : DevRef τ sig) ≠ Proc.devRef .tc main_v14)]
  | ⟨1, _⟩ =>
    refine ((d0 m c).arrAt_in 1 rfl _).trans ?_
    show V5 m c main_v13 = Function.update (V5 m c) main_v14 (res0 m c) main_v13
    rw [Function.update_of_ne (StableHlo.devRef_ne_of_ne (by decide) : (Proc.devRef .tc main_v13 : DevRef τ sig) ≠ Proc.devRef .tc main_v14)]
  | ⟨2, _⟩ =>
    show res0 m c = Function.update (V5 m c) main_v14 (res0 m c) main_v14
    rw [Function.update_self]

/-- Off region 0's arrays the exit valuation is the entry valuation. -/
theorem exit0_rest (c : Dev nD) : ∀ b, b ∉ Finset.univ.image (Pipeline.arrRef spec0) → ent1 m c b = ent0 m c b := fun b hb => by
  have hne : b ≠ main_v14 := fun e => hb (Finset.mem_image.mpr ⟨2, Finset.mem_univ _, e.symm⟩)
  show Function.update (V5 m c) main_v14 (res0 m c) b = V5 m c b
  rw [Function.update_of_ne (StableHlo.devRef_ne_of_ne hne : (Proc.devRef .tc b : DevRef τ sig) ≠ Proc.devRef .tc main_v14)]

set_option backward.isDefEq.respectTransparency.types false in
/-- Region 0 over the thread state: entered from every unscoped buffer at what the host stretches leave, left with the
    output array at the fold of the write-backs.  The arrays are split out of the unscoped buffers at entry and put back at exit;
    the generator register goes into the untouched-rest invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) fullShare fullShare c).loose
  hwaits := Pipeline.hwaits_of_owed_zero _ _ _ _ L lv 0 fun _ _ => rfl
  pre c := iprop(StableHlo.held (c : Thread nD τ) (Pipeline.ucRefs τ sig) (V5 m c) ∗ rest c)
  post c := iprop(StableHlo.held (c : Thread nD τ) (Pipeline.ucRefs τ sig) (val1 m c) ∗ rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full (q0_full m c)) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full (q0_full m c))
      (ent0 m c) (ent1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one operand array behind both operand windows -/

/-- Region 1's arrays, window by window: the shared operand array at its left half for the first window and at its right
    half for the second, the output array whole. -/
theorem arrays1_eq (c : Dev nD) (G : (w : Fin cfg1.W) → Buf (Elt F) ((cfg1.win w).arr.view.loc (c.tc : Thread nD τ))) :
    ((d1 m c).arrays G : sProp 𝕄)
      = iprop((((c : Thread nD τ).loc main_v10) ↦{fullShare.left} G 0) ∗ (((c : Thread nD τ).loc main_v10) ↦{fullShare.right} G 1)
          ∗ (((c : Thread nD τ).loc main_v15) ↦{fullShare} G 2)) := by
  unfold Dat.arrays
  rw [bigSep_W1, (arr_whole1 0).set_eq_univ, (arr_whole1 2).set_eq_univ]
  rfl

/-- The distinct buffers behind region 1's arrays. -/
theorem arrRefs1 : Finset.univ.image (Pipeline.arrRef spec1) = {main_v10, main_v15} := by decide

/-- The buffers behind region 1's arrays, each whole at V. -/
theorem arrBufs1_eq (c : Dev nD) (V : (b : Ref sig .tc) → Buf (Elt F) ((c : Thread nD τ).loc b)) :
    (Pipeline.arrBufs spec1 c V : sProp 𝕄)
      = iprop((((c : Thread nD τ).loc main_v10) ↦{fullShare} V main_v10) ∗ (((c : Thread nD τ).loc main_v15) ↦{fullShare} V main_v15)) := by
  unfold Pipeline.arrBufs
  rw [arrRefs1, bigSep_insert (by decide), bigSep_singleton]
  rfl

/-- ENTRY: the shared operand array, held whole, is dealt in halves to the two operand windows. -/
theorem split1 (c : Dev nD) :
    (Pipeline.arrBufs spec1 c (ent1 m c) : sProp 𝕄) ⊢ (d1 m c).arrays ((d1 m c).arrAt · 0) := by
  rw [arrays1_eq, arrBufs1_eq]
  iintro ⟨H10, H15⟩
  ihave H := (pointsTo_share (PosShare.mem_left_op_right fullShare)).1 $$ H10
  icases H with ⟨Ha, Hb⟩
  isplitl [Ha]; · iexact Ha
  isplitl [Hb]; · iexact Hb
  iexact H15

/-- Both operand windows leave the shared array as they found it; the output window leaves the fold of its write-backs. -/
theorem exit1_in0 (c : Dev nD) : (d1 m c).arrAt 0 cfg1.N = val2 m c main_v10 := by
  refine ((d1 m c).arrAt_in 0 rfl _).trans ?_
  show val1 m c main_v10 = Function.update (val1 m c) main_v15 (res1 m c) main_v10
  rw [Function.update_of_ne (StableHlo.devRef_ne_of_ne (by decide) : (Proc.devRef .tc main_v10 : DevRef τ sig) ≠ Proc.devRef .tc main_v15)]
theorem exit1_in1 (c : Dev nD) : (d1 m c).arrAt 1 cfg1.N = val2 m c main_v10 := by
  refine ((d1 m c).arrAt_in 1 rfl _).trans ?_
  show val1 m c main_v10 = Function.update (val1 m c) main_v15 (res1 m c) main_v10
  rw [Function.update_of_ne (StableHlo.devRef_ne_of_ne (by decide) : (Proc.devRef .tc main_v10 : DevRef τ sig) ≠ Proc.devRef .tc main_v15)]
theorem exit1_out (c : Dev nD) : (d1 m c).arrAt 2 cfg1.N = val2 m c main_v15 := by
  show res1 m c = Function.update (val1 m c) main_v15 (res1 m c) main_v15
  rw [Function.update_self]

/-- EXIT: the two halves of the shared operand array are joined; with the output array they are the buffers behind the
    arrays at the exit valuation. -/
theorem join1 (c : Dev nD) :
    ((d1 m c).arrays ((d1 m c).arrAt · cfg1.N) : sProp 𝕄) ⊢ Pipeline.arrBufs spec1 c (fun b => val2 m c b) := by
  rw [arrays1_eq, arrBufs1_eq, exit1_in0, exit1_in1, exit1_out]
  iintro ⟨Ha, Hb, H15⟩
  isplitl [Ha Hb]
  · iapply (pointsTo_share (PosShare.mem_left_op_right fullShare)).2
    isplitl [Ha] <;> iassumption
  iexact H15

/-- Off region 1's arrays the exit valuation is the entry valuation. -/
theorem exit1_rest (c : Dev nD) :
    (Pipeline.unscopedRest (Ix := Unit) (Name := ℕ) (U := UR sig nD τ) (Lvl := ℕ) spec1 c (ent1 m c) : sProp 𝕄)
      = Pipeline.unscopedRest spec1 c (fun b => val2 m c b) := by
  unfold Pipeline.unscopedRest
  refine bigSep_congr fun b hb => ?_
  have hne : b ≠ main_v15 := fun e => (Finset.mem_sdiff.mp hb).2 (Finset.mem_image.mpr ⟨2, Finset.mem_univ _, e.symm⟩)
  show _ = (((c : Thread nD τ).loc b) ↦{fullShare} Function.update (val1 m c) main_v15 (res1 m c) b)
  rw [Function.update_of_ne (StableHlo.devRef_ne_of_ne hne : (Proc.devRef .tc b : DevRef τ sig) ≠ Proc.devRef .tc main_v15)]

set_option backward.isDefEq.respectTransparency.types false in
/-- Region 1 over the thread state: entered from every unscoped buffer at the contents region 0 left, left with its
    output array at the fold of its write-backs. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (ent1 m) fullShare.left fullShare.right c).loose
  hwaits := Pipeline.hwaits_of_owed_zero _ _ _ _ L lv 1 fun _ _ => rfl
  pre c := iprop(StableHlo.held (c : Thread nD τ) (Pipeline.ucRefs τ sig) (val1 m c) ∗ rest c)
  post c := iprop(StableHlo.held (c : Thread nD τ) (Pipeline.ucRefs τ sig) (val2 m c) ∗ rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit : (StableHlo.held (c : Thread nD τ) (Pipeline.ucRefs τ sig) (val1 m c) : sProp 𝕄)
        = iprop(Pipeline.arrBufs spec1 c (ent1 m c) ∗ Pipeline.unscopedRest spec1 c (ent1 m c)) := by
      rw [← Pipeline.unscopedBufs_held (Ix := Unit) (Name := ℕ) (U := UR sig nD τ) (Lvl := ℕ) c (val1 m c)]
      exact Pipeline.unscopedBufs_split₀ cfgs 1 winFacts₀1.arr_unscoped c (ent1 m c)
    rw [hsplit]
    iintro ⟨⟨⟨Hab, Hrest⟩, Hp, HO⟩, -, -⟩
    ihave Ha := split1 m c $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (StableHlo.held (c : Thread nD τ) (Pipeline.ucRefs τ sig) (val2 m c) : sProp 𝕄)
        = iprop(Pipeline.arrBufs spec1 c (fun b => val2 m c b) ∗ Pipeline.unscopedRest spec1 c (fun b => val2 m c b)) := by
      rw [← Pipeline.unscopedBufs_held (Ix := Unit) (Name := ℕ) (U := UR sig nD τ) (Lvl := ℕ) c (val2 m c)]
      exact Pipeline.unscopedBufs_split₀ cfgs 1 winFacts₀1.arr_unscoped c (fun b => val2 m c b)
    rw [hjoin, ← exit1_rest]
    iintro ⟨Ha, HO, HY, Hrest⟩
    have hj : ((pdats m 1 c).arrays ((pdats m 1 c).arrAt · (Pipeline.pin (pcfgs (F := F)) adm 1).N) : sProp 𝕄)
        ⊢ Pipeline.arrBufs spec1 c (fun b => val2 m c b) := join1 m c
    ihave Hab := hj $$ Ha
    imodintro
    isplitl [Hab Hrest]
    · isplitl [Hab] <;> iassumption
    isplitl [HY]; · iexact HY
    unfold Pipeline.Dat.owesAt Pipeline.owesWithin
    icases HO with ⟨%W, -, HO⟩; iexists W; iexact HO

/-! ## The frame -/

variable (ρ : Dev nD → PrngReg)

/-- The launch's ghost element, dealt as the pipeline library deals it; no further resource. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the rest state. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => rest (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME at any float instance: from any memory with zero counters every weakly fair execution of @main terminates,
    nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp))
    (initOf (Pipeline.cells cfgs cellOf_inj) (Pipeline.launchToks cfgs cellOf_inj)) launch_ghost
    (fun _ c => rest c) (launch_rest ρ)
    (fun c => by iintro ⟨-, H⟩; iexact H)
    (reg0 m) (fun c => .rfl) (fun c => by rw [V6_eq]; exact .rfl)
    (reg1 m) (fun c => by rw [V6_eq]; exact .rfl) (fun c => by rw [V7_eq]; exact .rfl)

end Cert.Kernel.Hand

end
-- ==== Proof.KI.Body0.lean ====
/-
  Region 0 of the idealized kernel program: the cosine-threshold body run once on whole staging buffers.

  The body reads its two operand blocks x (1024 rows of 128) and y (1024 rows of 128), forms the 1024 x 1024 block of
  inner products x yᵀ on the matrix unit from a zero accumulator, and stores, entry by entry, zero where the inner
  product is below the threshold and the inner product itself elsewhere.  This module states what one run of the body
  leaves in the output staging buffer as a function of the two operand blocks, proves the body's triple, and lays out the
  pipeline's proof data at an arbitrary region-entry valuation V: the operand windows keep their blocks, the output
  window holds the body's result, nothing is owed and the invariant is the untouched scoped rest.
-/
import proofs.«130093_j9259949490946_1_alg».proof.Proof.Gen.KernelIdeal.Launch
import proofs.«130093_j9259949490946_1_alg».proof.Proof.Gen.KernelIdeal.Skeleton
import proofs.«130093_j9259949490946_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at grid point t, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's current staging buffer holds its block at every point, refetched there or not: the body leaves
    an operand block as it found it, and between fetches the block index does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole operand block and the whole output block as rectangles. -/
abbrev rIn0 : Rect S1024x128 := Rect.unit (s := S1024x128) ![0, 0] S1024x128.size inb_S1024x128_S1024x128_0_0
abbrev rOut0 : Rect S1024x1024 := Rect.unit (s := S1024x1024) ![0, 0] S1024x1024.size inb_S1024x1024_S1024x1024_0_0

/-- What one run of the body leaves in the output staging buffer: the thresholded inner products of the two operand
    blocks, stored over the whole block. -/
def out0_2 (x0 : Vec F S1024x128 .bf16) (x1 : Vec F S1024x128 .bf16) : Vec F S1024x1024 .f32 :=
  View.canon [⟨rOut0, k0_pay1 (View.ld x0 rIn0) (View.ld x1 rIn0)⟩]

/-- The one store covers the output block. -/
theorem cover0_2 (p0 : Vec F S1024x1024 .f32) (y : S1024x1024.Idx) :
    ∃ pc ∈ ([⟨rOut0, p0⟩] : List (View.Piece (Elt F) S1024x1024 .f32)), y ∈ pc.1.set :=
  View.cover_of_tiled [⟨rOut0, p0⟩] S1024x1024.size (by rfl) y

set_option maxHeartbeats 1000000 in
/-- The body's triple: from the operand buffers at x0 and x1 and the output buffer at anything, the body runs to the
    continuation with the operands as they were and the output at out0_2 x0 x1. -/
theorem sound_kernel0 (c : Dev nD) (E : Set ℕ) (i : grid0.Coords)
    (arg2 : Memref sig .tc .vmem S1024x128 .bf16) (harg2 : arg2.IsWhole)
    (arg3 : Memref sig .tc .vmem S1024x128 .bf16) (harg3 : arg3.IsWhole)
    (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__cos_threshold_kernel i arg2 harg2 arg3 harg3 arg4 harg4) K := by
  simp only [cc0__cos_threshold_kernel_eq_skeleton]; unfold cc0__cos_threshold_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c at the entry valuation V; the operand arrays are held at the shares q0, q1. -/
def dat0 (q0 q1 : PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => q0
    | ⟨1, _⟩ => q1
    | ⟨2, _⟩ => fullShare
  owed _ := 0

variable (q0 q1 : PosShare TreeShare)

theorem A_eq0 (c : Dev nD) (w : Fin cfg0.W) : (dat0 V q0 q1 c).A w = V c (Pipeline.arrRef spec0 w) := by
  dsimp only [dat0]

theorem after0_0 (c : Dev nD) (t : Fin cfg0.N) : (dat0 V q0 q1 c).after 0 t = iblk0 V c 0 t := by dsimp only [dat0]
theorem after0_1 (c : Dev nD) (t : Fin cfg0.N) : (dat0 V q0 q1 c).after 1 t = iblk0 V c 1 t := by dsimp only [dat0]
theorem after0_2 (c : Dev nD) (t : Fin cfg0.N) : (dat0 V q0 q1 c).after 2 t = out0_2 (iblk0 V c 0 t) (iblk0 V c 1 t) := by dsimp only [dat0]

theorem before0_0 (c : Dev nD) (t : Fin cfg0.N) (d) : (dat0 V q0 q1 c).before 0 t d = iblk0 V c 0 t :=
  before0_0_of V (dat0 V q0 q1 c) (A_eq0 V q0 q1 c 0) (after0_0 V q0 q1 c) t d
theorem before0_1 (c : Dev nD) (t : Fin cfg0.N) (d) : (dat0 V q0 q1 c).before 1 t d = iblk0 V c 1 t :=
  before0_1_of V (dat0 V q0 q1 c) (A_eq0 V q0 q1 c 1) (after0_1 V q0 q1 c) t d

/-- What the body is called with at point t, the windows one by one, -/
def bodyPre0 (c : Dev nD) (t : Fin cfg0.N) : sProp 𝕄 :=
  iprop((dat0 V q0 q1 c).Φ t.castSucc ∗ (dat0 V q0 q1 c).owesAt () t.castSucc
    ∗ (∃ d, owns (c : Thread nD τ) (st0_0 t) fullShare ((dat0 V q0 q1 c).before 0 t d))
    ∗ (∃ d, owns (c : Thread nD τ) (st0_1 t) fullShare ((dat0 V q0 q1 c).before 1 t d))
    ∗ (∃ d, owns (c : Thread nD τ) (st0_2 t) fullShare ((dat0 V q0 q1 c).before 2 t d)))

/-- and what it returns. -/
def bodyPost0 (c : Dev nD) (t : Fin cfg0.N) : sProp 𝕄 :=
  iprop((dat0 V q0 q1 c).Φ t.succ ∗ (dat0 V q0 q1 c).owesAt () t.succ
    ∗ owns (c : Thread nD τ) (st0_0 t) fullShare ((dat0 V q0 q1 c).after 0 t)
    ∗ owns (c : Thread nD τ) (st0_1 t) fullShare ((dat0 V q0 q1 c).after 1 t)
    ∗ owns (c : Thread nD τ) (st0_2 t) fullShare ((dat0 V q0 q1 c).after 2 t))

theorem sound_body0 (c : Dev nD) (t : Fin cfg0.N) :
    bodyPre0 V q0 q1 c t ⊢ wp frame (wpE (defs₀ (F := F)) Variants.none c none) Set.univ (bodyAt0 t) (fun _ => bodyPost0 V q0 q1 c t) := by
  unfold bodyPre0 bodyPost0 bodyAt0
  simp only [before0_0, before0_1]
  rw [show (dat0 V q0 q1 c).Φ t.succ = (dat0 V q0 q1 c).Φ t.castSucc from rfl,
    show (dat0 V q0 q1 c).owesAt () t.succ = (dat0 V q0 q1 c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V q0 q1 c) (defs₀ (F := F)) Variants.none () Set.univ := fun t => by
  rw [bigSep_W0, bigSep_W0]
  exact sound_body0 V q0 q1 c t

end Region0

end Cert.KernelIdeal.Hand

end
-- ==== Proof.KI.Body1.lean ====
/-
  Region 1 of the idealized kernel program: the cosine-threshold body run once on whole staging buffers.

  The body reads its two operand blocks x (1024 rows of 128) and y (1024 rows of 128), forms the 1024 x 1024 block of
  inner products x yᵀ on the matrix unit from a zero accumulator, and stores, entry by entry, zero where the inner
  product is below the threshold and the inner product itself elsewhere.  This module states what one run of the body
  leaves in the output staging buffer as a function of the two operand blocks, proves the body's triple, and lays out the
  pipeline's proof data at an arbitrary region-entry valuation V: the operand windows keep their blocks, the output
  window holds the body's result, nothing is owed and the invariant is the untouched scoped rest.
-/
import proofs.«130093_j9259949490946_1_alg».proof.Proof.Gen.KernelIdeal.Launch
import proofs.«130093_j9259949490946_1_alg».proof.Proof.Gen.KernelIdeal.Skeleton
import proofs.«130093_j9259949490946_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at grid point t, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's current staging buffer holds its block at every point, refetched there or not: the body leaves
    an operand block as it found it, and between fetches the block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole operand block and the whole output block as rectangles. -/
abbrev rIn1 : Rect S1024x128 := Rect.unit (s := S1024x128) ![0, 0] S1024x128.size inb_S1024x128_S1024x128_0_0
abbrev rOut1 : Rect S1024x1024 := Rect.unit (s := S1024x1024) ![0, 0] S1024x1024.size inb_S1024x1024_S1024x1024_0_0

/-- What one run of the body leaves in the output staging buffer: the thresholded inner products of the two operand
    blocks, stored over the whole block. -/
def out1_2 (x0 : Vec F S1024x128 .bf16) (x1 : Vec F S1024x128 .bf16) : Vec F S1024x1024 .f32 :=
  View.canon [⟨rOut1, k1_pay1 (View.ld x0 rIn1) (View.ld x1 rIn1)⟩]

/-- The one store covers the output block. -/
theorem cover1_2 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

set_option maxHeartbeats 1000000 in
/-- The body's triple: from the operand buffers at x0 and x1 and the output buffer at anything, the body runs to the
    continuation with the operands as they were and the output at out1_2 x0 x1. -/
theorem sound_kernel1 (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__cos_threshold_kernel i arg2 harg2 arg3 harg3 arg4 harg4) K := by
  simp only [cc1__cos_threshold_kernel_eq_skeleton]; unfold cc1__cos_threshold_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core c at the entry valuation V; the operand arrays are held at the shares q0, q1. -/
def dat1 (q0 q1 : PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => q0
    | ⟨1, _⟩ => q1
    | ⟨2, _⟩ => fullShare
  owed _ := 0

variable (q0 q1 : PosShare TreeShare)

theorem A_eq1 (c : Dev nD) (w : Fin cfg1.W) : (dat1 V q0 q1 c).A w = V c (Pipeline.arrRef spec1 w) := by
  dsimp only [dat1]

theorem after1_0 (c : Dev nD) (t : Fin cfg1.N) : (dat1 V q0 q1 c).after 0 t = iblk1 V c 0 t := by dsimp only [dat1]
theorem after1_1 (c : Dev nD) (t : Fin cfg1.N) : (dat1 V q0 q1 c).after 1 t = iblk1 V c 1 t := by dsimp only [dat1]
theorem after1_2 (c : Dev nD) (t : Fin cfg1.N) : (dat1 V q0 q1 c).after 2 t = out1_2 (iblk1 V c 0 t) (iblk1 V c 1 t) := by dsimp only [dat1]

theorem before1_0 (c : Dev nD) (t : Fin cfg1.N) (d) : (dat1 V q0 q1 c).before 0 t d = iblk1 V c 0 t :=
  before1_0_of V (dat1 V q0 q1 c) (A_eq1 V q0 q1 c 0) (after1_0 V q0 q1 c) t d
theorem before1_1 (c : Dev nD) (t : Fin cfg1.N) (d) : (dat1 V q0 q1 c).before 1 t d = iblk1 V c 1 t :=
  before1_1_of V (dat1 V q0 q1 c) (A_eq1 V q0 q1 c 1) (after1_1 V q0 q1 c) t d

/-- What the body is called with at point t, the windows one by one, -/
def bodyPre1 (c : Dev nD) (t : Fin cfg1.N) : sProp 𝕄 :=
  iprop((dat1 V q0 q1 c).Φ t.castSucc ∗ (dat1 V q0 q1 c).owesAt () t.castSucc
    ∗ (∃ d, owns (c : Thread nD τ) (st1_0 t) fullShare ((dat1 V q0 q1 c).before 0 t d))
    ∗ (∃ d, owns (c : Thread nD τ) (st1_1 t) fullShare ((dat1 V q0 q1 c).before 1 t d))
    ∗ (∃ d, owns (c : Thread nD τ) (st1_2 t) fullShare ((dat1 V q0 q1 c).before 2 t d)))

/-- and what it returns. -/
def bodyPost1 (c : Dev nD) (t : Fin cfg1.N) : sProp 𝕄 :=
  iprop((dat1 V q0 q1 c).Φ t.succ ∗ (dat1 V q0 q1 c).owesAt () t.succ
    ∗ owns (c : Thread nD τ) (st1_0 t) fullShare ((dat1 V q0 q1 c).after 0 t)
    ∗ owns (c : Thread nD τ) (st1_1 t) fullShare ((dat1 V q0 q1 c).after 1 t)
    ∗ owns (c : Thread nD τ) (st1_2 t) fullShare ((dat1 V q0 q1 c).after 2 t))

theorem sound_body1 (c : Dev nD) (t : Fin cfg1.N) :
    bodyPre1 V q0 q1 c t ⊢ wp frame (wpE (defs₀ (F := F)) Variants.none c none) Set.univ (bodyAt1 t) (fun _ => bodyPost1 V q0 q1 c t) := by
  unfold bodyPre1 bodyPost1 bodyAt1
  simp only [before1_0, before1_1]
  rw [show (dat1 V q0 q1 c).Φ t.succ = (dat1 V q0 q1 c).Φ t.castSucc from rfl,
    show (dat1 V q0 q1 c).owesAt () t.succ = (dat1 V q0 q1 c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V q0 q1 c) (defs₀ (F := F)) Variants.none () Set.univ := fun t => by
  rw [bigSep_W1, bigSep_W1]
  exact sound_body1 V q0 q1 c t

end Region1

end Cert.KernelIdeal.Hand

end
-- ==== Proof.KI.Regs.lean ====
/-
  The two kernel regions of the idealized kernel program as segments of its run, and the program's frame.

  Region 0 reads the two row-normalised tables (two distinct arrays) and writes the first similarity table; region 1 reads
  ONE table through both of its operand windows and writes the second similarity table.  Between the host stretches and the
  regions every unscoped buffer is tracked at a valuation: the one before region 0 is what the host operations computed, a
  region changes it only at its output array, where it leaves what the pipeline's write-backs fold to.  For region 1 the
  one operand array is held whole on entry, split into its two half shares, one per operand window, and joined again on exit;
  both windows leave it as they found it.
-/
import proofs.«130093_j9259949490946_1_alg».proof.Proof.KI.Body0
import proofs.«130093_j9259949490946_1_alg».proof.Proof.KI.Body1
import proofs.«130093_j9259949490946_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations at the regions' boundaries -/

/-- Region 0's entry contents, read at the TensorCore's references: what the host stretches leave. -/
abbrev ent0 : (c : Dev nD) → (b : Ref sig .tc) → Buf (Elt F) ((c : Thread nD τ).loc b) := fun c b => V5 m c b

/-- Region 0's proof data: both operand arrays held whole. -/
def d0 (c : Dev nD) : Dat τ (Elt F) Unit ℕ (UR sig nD τ) ℕ cfg0 c := dat0 (ent0 m) fullShare fullShare c

/-- What region 0 leaves in its output array: the fold of its write-backs. -/
def res0 (c : Dev nD) : Buf (Elt F) ((c : Thread nD τ).loc main_v14) := (d0 m c).arrAt 2 cfg0.N

/-- The contents after region 0: changed at the output array only. -/
abbrev val1 (c : Dev nD) : Valuation τ sig (Elt F) := Function.update (V5 m c) main_v14 (res0 m c)

/-- Region 1's entry contents at the TensorCore's references. -/
abbrev ent1 : (c : Dev nD) → (b : Ref sig .tc) → Buf (Elt F) ((c : Thread nD τ).loc b) := fun c b => val1 m c b

/-- Region 1's proof data: the one operand array held at a half share by each operand window. -/
def d1 (c : Dev nD) : Dat τ (Elt F) Unit ℕ (UR sig nD τ) ℕ cfg1 c := dat1 (ent1 m) fullShare.left fullShare.right c

/-- What region 1 leaves in its output array. -/
def res1 (c : Dev nD) : Buf (Elt F) ((c : Thread nD τ).loc main_v15) := (d1 m c).arrAt 2 cfg1.N

/-- The contents after region 1. -/
abbrev val2 (c : Dev nD) : Valuation τ sig (Elt F) := Function.update (val1 m c) main_v15 (res1 m c)

/-- What the regions leave in the buffers they may change, in the shape the conditional frame reads it. -/
def outs : Outs (F := F) := fun _ r c =>
  if h : r = main_v14 then h ▸ res0 m c else if h' : r = main_v15 then h' ▸ res1 m c else V5 m c r

theorem V6_eq (c : Dev nD) : V6 m (outs m) c = val1 m c := by
  show Function.update (V5 m c) main_v14 (outs m 6 main_v14 c) = _
  rw [show outs m 6 main_v14 c = res0 m c from by unfold outs; rw [dif_pos rfl]]

theorem V7_eq (c : Dev nD) : V7 m (outs m) c = val2 m c := by
  show Function.update (V6 m (outs m) c) main_v15 (outs m 7 main_v15 c) = _
  rw [V6_eq, show outs m 7 main_v15 c = res1 m c from by unfold outs; rw [dif_neg (by decide), dif_pos rfl]]

/-! ## The proof data family -/

/-- Every pipeline's proof data at its region's entry contents. -/
def pdats : (p : Fin 2) → (c : Dev nD) → Dat τ (Elt F) Unit ℕ (UR sig nD τ) ℕ (cfgs p) c
  | ⟨0, _⟩ => fun c => d0 m c
  | ⟨1, _⟩ => fun c => d1 m c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state and the core owing nothing. -/
abbrev rest (c : Dev nD) : sProp 𝕄 := iprop((∃ r, prngReg c r) ∗ ∃ W, owes (c : Thread nD τ) (0 : CellTallies nD τ sig Unit) W)

/-! ## Region 0: two distinct operand arrays -/

theorem q0_full (c : Dev nD) (w : Fin cfg0.W) : (d0 m c).q w = fullShare := by
  unfold d0 dat0
  match w with
  | ⟨0, _⟩ => rfl
  | ⟨1, _⟩ => rfl
  | ⟨2, _⟩ => rfl

/-- The fold of region 0's write-backs at each of its arrays is the exit valuation there. -/
theorem exit0_arr (c : Dev nD) (w : Fin cfg0.W) : (d0 m c).arrAt w cfg0.N = ent1 m c (Pipeline.arrRef spec0 w) := by
  match w with
  | ⟨0, _⟩ =>
    refine ((d0 m c).arrAt_in 0 rfl _).trans ?_
    show V5 m c main_v10 = Function.update (V5 m c) main_v14 (res0 m c) main_v10
    rw [Function.update_of_ne (StableHlo.devRef_ne_of_ne (by decide) : (Proc.devRef .tc main_v10 : DevRef τ sig) ≠ Proc.devRef .tc main_v14)]
  | ⟨1, _⟩ =>
    refine ((d0 m c).arrAt_in 1 rfl _).trans ?_
    show V5 m c main_v13 = Function.update (V5 m c) main_v14 (res0 m c) main_v13
    rw [Function.update_of_ne (StableHlo.devRef_ne_of_ne (by decide) : (Proc.devRef .tc main_v13 : DevRef τ sig) ≠ Proc.devRef .tc main_v14)]
  | ⟨2, _⟩ =>
    show res0 m c = Function.update (V5 m c) main_v14 (res0 m c) main_v14
    rw [Function.update_self]

/-- Off region 0's arrays the exit valuation is the entry valuation. -/
theorem exit0_rest (c : Dev nD) : ∀ b, b ∉ Finset.univ.image (Pipeline.arrRef spec0) → ent1 m c b = ent0 m c b := fun b hb => by
  have hne : b ≠ main_v14 := fun e => hb (Finset.mem_image.mpr ⟨2, Finset.mem_univ _, e.symm⟩)
  show Function.update (V5 m c) main_v14 (res0 m c) b = V5 m c b
  rw [Function.update_of_ne (StableHlo.devRef_ne_of_ne hne : (Proc.devRef .tc b : DevRef τ sig) ≠ Proc.devRef .tc main_v14)]

set_option backward.isDefEq.respectTransparency.types false in
/-- Region 0 over the thread state: entered from every unscoped buffer at what the host stretches leave, left with the
    output array at the fold of the write-backs.  The arrays are split out of the unscoped buffers at entry and put back at exit;
    the generator register goes into the untouched-rest invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) fullShare fullShare c).loose
  hwaits := Pipeline.hwaits_of_owed_zero _ _ _ _ L lv 0 fun _ _ => rfl
  pre c := iprop(StableHlo.held (c : Thread nD τ) (Pipeline.ucRefs τ sig) (V5 m c) ∗ rest c)
  post c := iprop(StableHlo.held (c : Thread nD τ) (Pipeline.ucRefs τ sig) (val1 m c) ∗ rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full (q0_full m c)) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full (q0_full m c))
      (ent0 m c) (ent1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one operand array behind both operand windows -/

/-- Region 1's arrays, window by window: the shared operand array at its left half for the first window and at its right
    half for the second, the output array whole. -/
theorem arrays1_eq (c : Dev nD) (G : (w : Fin cfg1.W) → Buf (Elt F) ((cfg1.win w).arr.view.loc (c.tc : Thread nD τ))) :
    ((d1 m c).arrays G : sProp 𝕄)
      = iprop((((c : Thread nD τ).loc main_v10) ↦{fullShare.left} G 0) ∗ (((c : Thread nD τ).loc main_v10) ↦{fullShare.right} G 1)
          ∗ (((c : Thread nD τ).loc main_v15) ↦{fullShare} G 2)) := by
  unfold Dat.arrays
  rw [bigSep_W1, (arr_whole1 0).set_eq_univ, (arr_whole1 2).set_eq_univ]
  rfl

/-- The distinct buffers behind region 1's arrays. -/
theorem arrRefs1 : Finset.univ.image (Pipeline.arrRef spec1) = {main_v10, main_v15} := by decide

/-- The buffers behind region 1's arrays, each whole at V. -/
theorem arrBufs1_eq (c : Dev nD) (V : (b : Ref sig .tc) → Buf (Elt F) ((c : Thread nD τ).loc b)) :
    (Pipeline.arrBufs spec1 c V : sProp 𝕄)
      = iprop((((c : Thread nD τ).loc main_v10) ↦{fullShare} V main_v10) ∗ (((c : Thread nD τ).loc main_v15) ↦{fullShare} V main_v15)) := by
  unfold Pipeline.arrBufs
  rw [arrRefs1, bigSep_insert (by decide), bigSep_singleton]
  rfl

/-- ENTRY: the shared operand array, held whole, is dealt in halves to the two operand windows. -/
theorem split1 (c : Dev nD) :
    (Pipeline.arrBufs spec1 c (ent1 m c) : sProp 𝕄) ⊢ (d1 m c).arrays ((d1 m c).arrAt · 0) := by
  rw [arrays1_eq, arrBufs1_eq]
  iintro ⟨H10, H15⟩
  ihave H := (pointsTo_share (PosShare.mem_left_op_right fullShare)).1 $$ H10
  icases H with ⟨Ha, Hb⟩
  isplitl [Ha]; · iexact Ha
  isplitl [Hb]; · iexact Hb
  iexact H15

/-- Both operand windows leave the shared array as they found it; the output window leaves the fold of its write-backs. -/
theorem exit1_in0 (c : Dev nD) : (d1 m c).arrAt 0 cfg1.N = val2 m c main_v10 := by
  refine ((d1 m c).arrAt_in 0 rfl _).trans ?_
  show val1 m c main_v10 = Function.update (val1 m c) main_v15 (res1 m c) main_v10
  rw [Function.update_of_ne (StableHlo.devRef_ne_of_ne (by decide) : (Proc.devRef .tc main_v10 : DevRef τ sig) ≠ Proc.devRef .tc main_v15)]
theorem exit1_in1 (c : Dev nD) : (d1 m c).arrAt 1 cfg1.N = val2 m c main_v10 := by
  refine ((d1 m c).arrAt_in 1 rfl _).trans ?_
  show val1 m c main_v10 = Function.update (val1 m c) main_v15 (res1 m c) main_v10
  rw [Function.update_of_ne (StableHlo.devRef_ne_of_ne (by decide) : (Proc.devRef .tc main_v10 : DevRef τ sig) ≠ Proc.devRef .tc main_v15)]
theorem exit1_out (c : Dev nD) : (d1 m c).arrAt 2 cfg1.N = val2 m c main_v15 := by
  show res1 m c = Function.update (val1 m c) main_v15 (res1 m c) main_v15
  rw [Function.update_self]

/-- EXIT: the two halves of the shared operand array are joined; with the output array they are the buffers behind the
    arrays at the exit valuation. -/
theorem join1 (c : Dev nD) :
    ((d1 m c).arrays ((d1 m c).arrAt · cfg1.N) : sProp 𝕄) ⊢ Pipeline.arrBufs spec1 c (fun b => val2 m c b) := by
  rw [arrays1_eq, arrBufs1_eq, exit1_in0, exit1_in1, exit1_out]
  iintro ⟨Ha, Hb, H15⟩
  isplitl [Ha Hb]
  · iapply (pointsTo_share (PosShare.mem_left_op_right fullShare)).2
    isplitl [Ha] <;> iassumption
  iexact H15

/-- Off region 1's arrays the exit valuation is the entry valuation. -/
theorem exit1_rest (c : Dev nD) :
    (Pipeline.unscopedRest (Ix := Unit) (Name := ℕ) (U := UR sig nD τ) (Lvl := ℕ) spec1 c (ent1 m c) : sProp 𝕄)
      = Pipeline.unscopedRest spec1 c (fun b => val2 m c b) := by
  unfold Pipeline.unscopedRest
  refine bigSep_congr fun b hb => ?_
  have hne : b ≠ main_v15 := fun e => (Finset.mem_sdiff.mp hb).2 (Finset.mem_image.mpr ⟨2, Finset.mem_univ _, e.symm⟩)
  show _ = (((c : Thread nD τ).loc b) ↦{fullShare} Function.update (val1 m c) main_v15 (res1 m c) b)
  rw [Function.update_of_ne (StableHlo.devRef_ne_of_ne hne : (Proc.devRef .tc b : DevRef τ sig) ≠ Proc.devRef .tc main_v15)]

set_option backward.isDefEq.respectTransparency.types false in
/-- Region 1 over the thread state: entered from every unscoped buffer at the contents region 0 left, left with its
    output array at the fold of its write-backs. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (ent1 m) fullShare.left fullShare.right c).loose
  hwaits := Pipeline.hwaits_of_owed_zero _ _ _ _ L lv 1 fun _ _ => rfl
  pre c := iprop(StableHlo.held (c : Thread nD τ) (Pipeline.ucRefs τ sig) (val1 m c) ∗ rest c)
  post c := iprop(StableHlo.held (c : Thread nD τ) (Pipeline.ucRefs τ sig) (val2 m c) ∗ rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit : (StableHlo.held (c : Thread nD τ) (Pipeline.ucRefs τ sig) (val1 m c) : sProp 𝕄)
        = iprop(Pipeline.arrBufs spec1 c (ent1 m c) ∗ Pipeline.unscopedRest spec1 c (ent1 m c)) := by
      rw [← Pipeline.unscopedBufs_held (Ix := Unit) (Name := ℕ) (U := UR sig nD τ) (Lvl := ℕ) c (val1 m c)]
      exact Pipeline.unscopedBufs_split₀ cfgs 1 winFacts₀1.arr_unscoped c (ent1 m c)
    rw [hsplit]
    iintro ⟨⟨⟨Hab, Hrest⟩, Hp, HO⟩, -, -⟩
    ihave Ha := split1 m c $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : (StableHlo.held (c : Thread nD τ) (Pipeline.ucRefs τ sig) (val2 m c) : sProp 𝕄)
        = iprop(Pipeline.arrBufs spec1 c (fun b => val2 m c b) ∗ Pipeline.unscopedRest spec1 c (fun b => val2 m c b)) := by
      rw [← Pipeline.unscopedBufs_held (Ix := Unit) (Name := ℕ) (U := UR sig nD τ) (Lvl := ℕ) c (val2 m c)]
      exact Pipeline.unscopedBufs_split₀ cfgs 1 winFacts₀1.arr_unscoped c (fun b => val2 m c b)
    rw [hjoin, ← exit1_rest]
    iintro ⟨Ha, HO, HY, Hrest⟩
    have hj : ((pdats m 1 c).arrays ((pdats m 1 c).arrAt · (Pipeline.pin (pcfgs (F := F)) adm 1).N) : sProp 𝕄)
        ⊢ Pipeline.arrBufs spec1 c (fun b => val2 m c b) := join1 m c
    ihave Hab := hj $$ Ha
    imodintro
    isplitl [Hab Hrest]
    · isplitl [Hab] <;> iassumption
    isplitl [HY]; · iexact HY
    unfold Pipeline.Dat.owesAt Pipeline.owesWithin
    icases HO with ⟨%W, -, HO⟩; iexists W; iexact HO

/-! ## The frame -/

variable (ρ : Dev nD → PrngReg)

/-- The launch's ghost element, dealt as the pipeline library deals it; no further resource. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the rest state. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => rest (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME at any float instance: from any memory with zero counters every weakly fair execution of @main terminates,
    nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp))
    (initOf (Pipeline.cells cfgs cellOf_inj) (Pipeline.launchToks cfgs cellOf_inj)) launch_ghost
    (fun _ c => rest c) (launch_rest ρ)
    (fun c => by iintro ⟨-, H⟩; iexact H)
    (reg0 m) (fun c => .rfl) (fun c => by rw [V6_eq]; exact .rfl)
    (reg1 m) (fun c => by rw [V6_eq]; exact .rfl) (fun c => by rw [V7_eq]; exact .rfl)

end Cert.KernelIdeal.Hand

end
-- ==== Proof.KI.RunValues.lean ====
/-
  The idealized kernel program's run with its two result arrays named: beside the four argument arrays ending as launched,
  the first similarity table's array ends at what region 0's write-backs fold to and the second's at what region 1's do.
  The run is the same chain of five host stretches and two kernel regions as the frame's; only what is read off the last
  valuation at the end is more.
-/
import proofs.«130093_j9259949490946_1_alg».proof.Proof.KI.Regs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last valuation at the two result arrays and the four argument arrays. -/
theorem val2_main_v15 (c : Dev nD) : val2 m c main_v15 = res1 m c := by
  show Function.update (val1 m c) main_v15 (res1 m c) main_v15 = _
  rw [Function.update_self]
theorem val2_main_v14 (c : Dev nD) : val2 m c main_v14 = res0 m c := by
  show Function.update (Function.update (V5 m c) main_v14 (res0 m c)) main_v15 (res1 m c) main_v14 = _
  rw [Function.update_of_ne (StableHlo.devRef_ne_of_ne (by decide) : (Proc.devRef .tc main_v14 : DevRef τ sig) ≠ Proc.devRef .tc main_v15),
    Function.update_self]
theorem val2_main_arg0 (c : Dev nD) : val2 m c main_arg0 = m ((c : Thread nD τ).loc main_arg0) := by
  rw [← V7_eq]; exact V7_main_arg0 m (outs m) c
theorem val2_main_arg1 (c : Dev nD) : val2 m c main_arg1 = m ((c : Thread nD τ).loc main_arg1) := by
  rw [← V7_eq]; exact V7_main_arg1 m (outs m) c
theorem val2_main_arg2 (c : Dev nD) : val2 m c main_arg2 = m ((c : Thread nD τ).loc main_arg2) := by
  rw [← V7_eq]; exact V7_main_arg2 m (outs m) c
theorem val2_main_arg3 (c : Dev nD) : val2 m c main_arg3 = m ((c : Thread nD τ).loc main_arg3) := by
  rw [← V7_eq]; exact V7_main_arg3 m (outs m) c

set_option backward.isDefEq.respectTransparency.types false in
/-- THE RUN WITH VALUES, at any float instance. -/
theorem run_values : θ_run defs (onTc (τ := τ) (main (F := F))) ⟨m, fun _ => 0, ρ⟩ (fun r => ∀ c : Dev nD,
      r.2.mem ((c.tc : Thread nD τ).loc main_v15) = res1 m c
      ∧ r.2.mem ((c.tc : Thread nD τ).loc main_v14) = res0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ 𝒱₀ L lv m ρ main
    (segs m 𝒱₀ L lv (fun _ c => rest c) () (pdats m) (reg0 m) (reg1 m))
    (fun c Q => by
      rewrite [main_chain c, Seg.run_eq_chain,
        show (segs m 𝒱₀ L lv (fun _ c => rest c) () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) launch_ghost
    (T₀ := fun c => iprop(StableHlo.held (c : Thread nD τ) (Pipeline.ucRefs τ sig) (V0 m c) ∗ rest c))
    (Tₙ := fun c => StableHlo.held (c : Thread nD τ) (Pipeline.ucRefs τ sig) (val2 m c))
    (hch := fun c => ⟨.rfl, .rfl, .rfl, .rfl, .rfl, .rfl, .rfl, sep_mono .rfl (by iintro ⟨-, H⟩; iexact H)⟩)
    (hinit := ?_)
    (QY := fun c s => s.mem ((c.tc : Thread nD τ).loc main_v15) = res1 m c
      ∧ s.mem ((c.tc : Thread nD τ).loc main_v14) = res0 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch: the unscoped buffers are held at the launch valuation; the rest makes the rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => rest (F := F) c)]
    isplitl [Hh]; · iexact Hh
    iexact HE
  · -- the end: the result arrays and each argument's buffer read off the last valuation
    unfold StableHlo.held
    iintro ⟨Hh, HSI⟩
    ihave Hr := (pointsTo_read_all (Pipeline.ucRefs τ sig) (fun b => ((c : Thread nD τ).1, b)) (val2 m c) s') $$ [Hh HSI]
    · isplitl [Hh] <;> iassumption
    icases Hr with ⟨%h, HSI⟩
    imodintro
    isplitr
    · ipureintro
      exact ⟨(h (Proc.devRef .tc main_v15) (Finset.mem_filter.mpr ⟨StableHlo.devRef_mem_tcRefs main_v15, by decide⟩)).trans (val2_main_v15 m c),
        (h (Proc.devRef .tc main_v14) (Finset.mem_filter.mpr ⟨StableHlo.devRef_mem_tcRefs main_v14, by decide⟩)).trans (val2_main_v14 m c),
        (h (Proc.devRef .tc main_arg0) (Finset.mem_filter.mpr ⟨StableHlo.devRef_mem_tcRefs main_arg0, by decide⟩)).trans (val2_main_arg0 m c),
        (h (Proc.devRef .tc main_arg1) (Finset.mem_filter.mpr ⟨StableHlo.devRef_mem_tcRefs main_arg1, by decide⟩)).trans (val2_main_arg1 m c),
        (h (Proc.devRef .tc main_arg2) (Finset.mem_filter.mpr ⟨StableHlo.devRef_mem_tcRefs main_arg2, by decide⟩)).trans (val2_main_arg2 m c),
        (h (Proc.devRef .tc main_arg3) (Finset.mem_filter.mpr ⟨StableHlo.devRef_mem_tcRefs main_arg3, by decide⟩)).trans (val2_main_arg3 m c)⟩
    · iexact HSI

end Cert.KernelIdeal.Hand

end
-- ==== Proof.Spec.lean ====
/-
  The mathematics both programs compute, stated once over the extended reals.

  Every row of a product table x ⊙ w is divided by the larger of its Euclidean norm and a small floor (`normalize`).
  A similarity table of two such row-normalised tables A and B holds, at (i, j), the inner product of row i of A
  with row j of B, replaced by zero where it lies below the threshold (`simTable`).
-/
import Idealize.ShloMosaic.PureOps.Ideal
import Idealize.ShloMosaic.Lib.ValueIdx

noncomputable section

namespace Cert.Spec

open Idealize.ShloMosaic Idealize.ShloMosaic.ValueIdx

abbrev SRows : Shape := ⟨2, ![8192, 128]⟩
abbrev SVec : Shape := ⟨1, ![8192]⟩
abbrev SCol : Shape := ⟨2, ![8192, 1]⟩
abbrev SOne : Shape := ⟨0, ![]⟩
abbrev SSim : Shape := ⟨2, ![8192, 8192]⟩

/-- Row normalisation of the elementwise product x ⊙ w: each row divided by max(‖row‖₂, floor).  The shape relations the
    operations take are arguments (propositions: any two proofs give the same function). -/
def normalize (hred : SRows.ReducesTo [1] SVec) (h0 : 0 < SOne.numel)
    (hb1 : SVec.BroadcastsInDim SCol (![0] : Fin 1 → Fin SCol.rank))
    (hb0 : SOne.BroadcastsInDim SCol (![] : Fin 0 → Fin SCol.rank))
    (hb2 : SCol.BroadcastsInDim SRows (![0, 1] : Fin 2 → Fin SRows.rank))
    (x w : FVec Ideal SRows .f32) : FVec Ideal SRows .f32 :=
  Host.divf (mulf x w)
    (broadcastInDim SRows ![0, 1] hb2
      (maximumf
        (Host.sqrt (broadcastInDim SCol ![0] hb1
          (Host.reduceAdd (mulf (mulf x w) (mulf x w)) (constant (F := Ideal) SOne .f32 0x00000000#32) hred h0)))
        (broadcastInDim SCol ![] hb0 (constant (F := Ideal) SOne .f32 0x322BCC77#32))))

/-- An inner product below the threshold is replaced by zero. -/
def cut (s : EReal) : EReal :=
  Scalar.select (FloatOps.cmpf (F := Ideal) (φ := .f32) .olt s (Ideal.ofBits .f32 0x3F666666#32)) (Ideal.ofBits .f32 0x00000000#32) s

/-- The thresholded table of inner products of the rows of A with the rows of B. -/
def simTable (A B : SRows.Idx → EReal) : SSim.Idx → EReal :=
  fun j => cut (∑ k : Fin 128, A (ix2 (j 0) k) * B (ix2 (j 1) k))

end Cert.Spec

end
-- ==== Proof.KI.Final0.lean ====
/-
  Region 0's output array after the last grid point, as the thresholded similarity table of its two operand arrays.
-/
import proofs.«130093_j9259949490946_1_alg».proof.Proof.KI.Body0
import proofs.«130093_j9259949490946_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

/-! ## The payload at an index -/

/-- The left factor of the block product at output entry i and contraction index k sits in row i 0 … -/
private theorem lhs_axis0 (i : S1024x1024.Idx) (κ : dot_S1024x128_S128x1024_S1024x1024_1_0_0_1_n_n.contr.Idx) :
    (dot_S1024x128_S128x1024_S1024x1024_1_0_0_1_n_n.lhsIdx i κ 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- … and column k; -/
private theorem lhs_axis1 (i : S1024x1024.Idx) (κ : dot_S1024x128_S128x1024_S1024x1024_1_0_0_1_n_n.contr.Idx) :
    (dot_S1024x128_S128x1024_S1024x1024_1_0_0_1_n_n.lhsIdx i κ 1).val = (κ ⟨0, by decide⟩).val :=
  dot_S1024x128_S128x1024_S1024x1024_1_0_0_1_n_n.lhsIdx_val_of_single rfl i κ
/-- the right factor in row k … -/
private theorem rhs_axis0 (i : S1024x1024.Idx) (κ : dot_S1024x128_S128x1024_S1024x1024_1_0_0_1_n_n.contr.Idx) :
    (dot_S1024x128_S128x1024_S1024x1024_1_0_0_1_n_n.rhsIdx i κ 0).val = (κ ⟨0, by decide⟩).val :=
  dot_S1024x128_S128x1024_S1024x1024_1_0_0_1_n_n.rhsIdx_val_of_single rfl i κ
/-- … and column i 1. -/
private theorem rhs_axis1 (i : S1024x1024.Idx) (κ : dot_S1024x128_S128x1024_S1024x1024_1_0_0_1_n_n.contr.Idx) :
    (dot_S1024x128_S128x1024_S1024x1024_1_0_0_1_n_n.rhsIdx i κ 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The block product from a zero accumulator, entry (p, q): the sum over the 128 columns of row p of the left factor
    times column q of the right. -/
private theorem prod_apply (a : FVec Ideal S1024x128 .bf16) (b : FVec Ideal S128x1024 .bf16) (p q : Fin 1024) :
    matmul dot_S1024x128_S128x1024_S1024x1024_1_0_0_1_n_n none a b (constant (F := Ideal) S1024x1024 .f32 0x00000000#32) (ix2 p q)
      = ∑ k : Fin 128, a (ix2 p k) * b (ix2 k q) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun d => Fin.ext (by
    match d with
    | ⟨0, _⟩ => exact lhs_axis0 _ _
    | ⟨1, _⟩ => exact (lhs_axis1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun d => Fin.ext (by
    match d with
    | ⟨0, _⟩ => exact (rhs_axis0 _ _).trans hk
    | ⟨1, _⟩ => exact rhs_axis1 _ _)
  rw [el, er]

/-- The transposed block at (k, q) is the block at (q, k). -/
private theorem transposed_apply (b : FVec Ideal S1024x128 .bf16) (k : Fin 128) (q : Fin 1024) :
    transpose S128x1024 [1, 0] b transposes_S1024x128_p1_0_S128x1024 (ix2 k q) = b (ix2 q k) :=
  transpose_apply [1, 0] b transposes_S1024x128_p1_0_S128x1024 (ix2 k q) (ix2 q k) (fun d => match d with
    | ⟨0, _⟩ => rfl
    | ⟨1, _⟩ => rfl)

/-- The block product of the first operand block with the transposed second one, entry (p, q): the inner product of row p of
    the first with row q of the second. -/
private theorem prodT_apply (a b : FVec Ideal S1024x128 .bf16) (p q : Fin 1024) :
    matmul dot_S1024x128_S128x1024_S1024x1024_1_0_0_1_n_n none a (transpose S128x1024 [1, 0] b transposes_S1024x128_p1_0_S128x1024)
        (constant (F := Ideal) S1024x1024 .f32 0x00000000#32) (ix2 p q)
      = ∑ k : Fin 128, a (ix2 p k) * b (ix2 q k) :=
  (prod_apply a _ p q).trans (Finset.sum_congr rfl fun k _ => congrArg (a (ix2 p k) * ·) (transposed_apply b k q))

set_option maxHeartbeats 400000 in
/-- The body's arithmetic at entry (p, q) of the output block: the inner product of row p of the first operand block
    with row q of the second, cut at the threshold. -/
private theorem pay0_apply (x0 x1 : FVec Ideal S1024x128 .bf16) (p q : Fin 1024) :
    k0_pay1 (F := Ideal) x0 x1 (ix2 p q) = Cert.Spec.cut (∑ k : Fin 128, x0 (ix2 p k) * x1 (ix2 q k)) := by
  unfold k0_pay1
  dsimp only
  rw [shapeCast_self, shapeCast_self, select_apply, cmpf_apply, broadcast_apply, broadcast_apply, prodT_apply]
  rfl

/-! ## From blocks to the array -/

private theorem hz0 : (![0, 0] : Fin 2 → Nat) = fun _ => 0 := funext fun a => by fin_cases a <;> rfl

/-- Where the three windows' blocks sit at grid point t, decided over the 64 points: the first operand's block is
    row block t / 8, the second operand's is row block t % 8, and the output's block is (t / 8, t % 8). -/
private theorem idx0_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

/-- Entry (p, k) of the first operand's block at point t is entry (1024 (t / 8) + p, k) of its array. -/
private theorem iblk0_0_apply (V : (c : Dev nD) → (b : Ref sig .tc) → Buf (Elt Ideal) ((c : Thread nD τ).loc b)) (c : Dev nD) (t : Fin cfg0.N) (p : Fin 1024) (k : Fin 128) (i : S8192x128.Idx)
    (hi0 : (i 0).val = t.val / 8 * 1024 + p.val) (hi1 : (i 1).val = k.val) :
    (iblk0 (F := Ideal) V c 0 t : FVec Ideal S1024x128 .bf16) (ix2 p k) = (V c (Pipeline.arrRef spec0 0) : S8192x128.Idx → EReal) i := by
  obtain ⟨e0, e1, -⟩ := idx0_facts t
  show V c (Pipeline.arrRef spec0 0) (((cfg0.win 0).blk t).view.emb (ix2 p k)) = V c (Pipeline.arrRef spec0 0) i
  refine congrArg _ (funext fun a => Fin.ext ?_)
  match a with
  | ⟨0, _⟩ => show win0_0.index t (0 : Fin 2) * 1024 + 1 * p.val = (i 0).val; omega
  | ⟨1, _⟩ => show win0_0.index t (1 : Fin 2) * 128 + 1 * k.val = (i 1).val; omega

/-- Entry (q, k) of the second operand's block at point t is entry (1024 (t % 8) + q, k) of its array. -/
private theorem iblk0_1_apply (V : (c : Dev nD) → (b : Ref sig .tc) → Buf (Elt Ideal) ((c : Thread nD τ).loc b)) (c : Dev nD) (t : Fin cfg0.N) (q : Fin 1024) (k : Fin 128) (i : S8192x128.Idx)
    (hi0 : (i 0).val = t.val % 8 * 1024 + q.val) (hi1 : (i 1).val = k.val) :
    (iblk0 (F := Ideal) V c 1 t : FVec Ideal S1024x128 .bf16) (ix2 q k) = (V c (Pipeline.arrRef spec0 1) : S8192x128.Idx → EReal) i := by
  obtain ⟨-, -, e2, e3, -⟩ := idx0_facts t
  show V c (Pipeline.arrRef spec0 1) (((cfg0.win 1).blk t).view.emb (ix2 q k)) = V c (Pipeline.arrRef spec0 1) i
  refine congrArg _ (funext fun a => Fin.ext ?_)
  match a with
  | ⟨0, _⟩ => show win0_1.index t (0 : Fin 2) * 1024 + 1 * q.val = (i 0).val; omega
  | ⟨1, _⟩ => show win0_1.index t (1 : Fin 2) * 128 + 1 * k.val = (i 1).val; omega

/-- What point t writes back is its block of the thresholded similarity table of the two operand arrays. -/
private theorem flushed0_eq (V : (c : Dev nD) → (b : Ref sig .tc) → Buf (Elt Ideal) ((c : Thread nD τ).loc b)) (q0 q1 : PosShare TreeShare) (c : Dev nD) (t : Fin cfg0.N) :
    (dat0 (F := Ideal) V q0 q1 c).flushed 2 t
      = ((cfg0.win 2).blk t).view.read (Elt Ideal) (Cert.Spec.simTable (V c (Pipeline.arrRef spec0 0)) (V c (Pipeline.arrRef spec0 1))) := by
  show (cfg0.win 2).cut (grid0.coords t) ((dat0 (F := Ideal) V q0 q1 c).after 2 t) = _
  rw [after0_2]
  unfold out0_2
  rw [View.canon_unit_zero hz0]
  simp only [View.ld_unit_zero (S := S1024x128) hz0]
  obtain ⟨-, -, -, -, e4, e5⟩ := idx0_facts t
  funext j
  have hp : (j 0).val < 1024 := (j 0).isLt
  have hq : (j 1).val < 1024 := (j 1).isLt
  have hx : (cfg0.win 2).xinj (grid0.coords t) j = ix2 (⟨(j 0).val, hp⟩ : Fin 1024) (⟨(j 1).val, hq⟩ : Fin 1024) :=
    funext fun a => match a with | ⟨0, _⟩ => rfl | ⟨1, _⟩ => rfl
  show k0_pay1 (F := Ideal) (iblk0 V c 0 t) (iblk0 V c 1 t) ((cfg0.win 2).xinj (grid0.coords t) j)
    = Cert.Spec.simTable (V c (Pipeline.arrRef spec0 0)) (V c (Pipeline.arrRef spec0 1)) (((cfg0.win 2).blk t).view.emb j)
  rw [hx]
  refine (pay0_apply (iblk0 V c 0 t) (iblk0 V c 1 t) ⟨(j 0).val, hp⟩ ⟨(j 1).val, hq⟩).trans ?_
  show Cert.Spec.cut _ = Cert.Spec.cut _
  refine congrArg Cert.Spec.cut (Finset.sum_congr rfl fun k _ => ?_)
  refine congrArg₂ (fun a b : EReal => a * b)
    (iblk0_0_apply V c t ⟨(j 0).val, hp⟩ k (ix2 ((((cfg0.win 2).blk t).view.emb j) 0) k) ?_ rfl)
    (iblk0_1_apply V c t ⟨(j 1).val, hq⟩ k (ix2 ((((cfg0.win 2).blk t).view.emb j) 1) k) ?_ rfl)
  · show win0_2.index t (0 : Fin 2) * 1024 + 1 * (j 0).val = t.val / 8 * 1024 + (j 0).val; omega
  · show win0_2.index t (1 : Fin 2) * 1024 + 1 * (j 1).val = t.val % 8 * 1024 + (j 1).val; omega

/-- An entry of the output array lies in point t's block iff each coordinate lies in the block's range on its axis. -/
private theorem mem_blk0 (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole (Pipeline.arrRef spec0 2)).slice (win0_2.rect t)).set ↔ _
  rw [View.set_slice_whole, Rect.mem_set_unit]
  exact Iff.rfl

/-- Every entry (r, s) of the output array lies in the block of the point (r / 1024) * 8 + s / 1024, which is written back. -/
private theorem cover0 (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 64 := (by decide : grid0.N = 64)
  have hlt : (i 0).val / 1024 * 8 + (i 1).val / 1024 < cfg0.N := by rw [hN]; omega
  obtain ⟨T, hT⟩ : ∃ T : Fin cfg0.N, T.val = (i 0).val / 1024 * 8 + (i 1).val / 1024 := ⟨⟨_, hlt⟩, rfl⟩
  obtain ⟨-, -, -, -, e4, e5⟩ := idx0_facts T
  refine ⟨T, flush0_2 T, ?_⟩
  rw [mem_blk0]
  intro a
  match a with
  | ⟨0, _⟩ => show win0_2.index T (0 : Fin 2) * 1024 ≤ (i 0).val ∧ (i 0).val < win0_2.index T (0 : Fin 2) * 1024 + 1024; omega
  | ⟨1, _⟩ => show win0_2.index T (1 : Fin 2) * 1024 ≤ (i 1).val ∧ (i 1).val < win0_2.index T (1 : Fin 2) * 1024 + 1024; omega

/-- After all 64 grid points the output array of region 0 holds, at (i, j), the thresholded inner product of row i of the
    first operand array with row j of the second, whatever the region-entry valuation V and the shares. -/
theorem final0 (V : (c : Dev nD) → (b : Ref sig .tc) → Buf (Elt Ideal) ((c : Thread nD τ).loc b)) (q0 q1 : PosShare TreeShare) (c : Dev nD) :
    (dat0 (F := Ideal) V q0 q1 c).arrAt 2 cfg0.N
      = Cert.Spec.simTable (V c (Pipeline.arrRef spec0 0)) (V c (Pipeline.arrRef spec0 1)) :=
  (dat0 (F := Ideal) V q0 q1 c).arrAt_eq_of_cover 2
    (Cert.Spec.simTable (V c (Pipeline.arrRef spec0 0)) (V c (Pipeline.arrRef spec0 1)))
    (fun t _ => flushed0_eq V q0 q1 c t) cover0

end Cert.KernelIdeal.Hand

end
-- ==== Proof.KI.Final1.lean ====
/-
  Region 1's output array after the last grid point, as the thresholded similarity table of its two operand arrays.
-/
import proofs.«130093_j9259949490946_1_alg».proof.Proof.KI.Body1
import proofs.«130093_j9259949490946_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

/-! ## The payload at an index -/

/-- The left factor of the block product at output entry i and contraction index k sits in row i 0 … -/
private theorem lhs_axis0 (i : S1024x1024.Idx) (κ : dot_S1024x128_S128x1024_S1024x1024_1_0_0_1_n_n.contr.Idx) :
    (dot_S1024x128_S128x1024_S1024x1024_1_0_0_1_n_n.lhsIdx i κ 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- … and column k; -/
private theorem lhs_axis1 (i : S1024x1024.Idx) (κ : dot_S1024x128_S128x1024_S1024x1024_1_0_0_1_n_n.contr.Idx) :
    (dot_S1024x128_S128x1024_S1024x1024_1_0_0_1_n_n.lhsIdx i κ 1).val = (κ ⟨0, by decide⟩).val :=
  dot_S1024x128_S128x1024_S1024x1024_1_0_0_1_n_n.lhsIdx_val_of_single rfl i κ
/-- the right factor in row k … -/
private theorem rhs_axis0 (i : S1024x1024.Idx) (κ : dot_S1024x128_S128x1024_S1024x1024_1_0_0_1_n_n.contr.Idx) :
    (dot_S1024x128_S128x1024_S1024x1024_1_0_0_1_n_n.rhsIdx i κ 0).val = (κ ⟨0, by decide⟩).val :=
  dot_S1024x128_S128x1024_S1024x1024_1_0_0_1_n_n.rhsIdx_val_of_single rfl i κ
/-- … and column i 1. -/
private theorem rhs_axis1 (i : S1024x1024.Idx) (κ : dot_S1024x128_S128x1024_S1024x1024_1_0_0_1_n_n.contr.Idx) :
    (dot_S1024x128_S128x1024_S1024x1024_1_0_0_1_n_n.rhsIdx i κ 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The block product from a zero accumulator, entry (p, q): the sum over the 128 columns of row p of the left factor
    times column q of the right. -/
private theorem prod_apply (a : FVec Ideal S1024x128 .bf16) (b : FVec Ideal S128x1024 .bf16) (p q : Fin 1024) :
    matmul dot_S1024x128_S128x1024_S1024x1024_1_0_0_1_n_n none a b (constant (F := Ideal) S1024x1024 .f32 0x00000000#32) (ix2 p q)
      = ∑ k : Fin 128, a (ix2 p k) * b (ix2 k q) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun d => Fin.ext (by
    match d with
    | ⟨0, _⟩ => exact lhs_axis0 _ _
    | ⟨1, _⟩ => exact (lhs_axis1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun d => Fin.ext (by
    match d with
    | ⟨0, _⟩ => exact (rhs_axis0 _ _).trans hk
    | ⟨1, _⟩ => exact rhs_axis1 _ _)
  rw [el, er]

/-- The transposed block at (k, q) is the block at (q, k). -/
private theorem transposed_apply (b : FVec Ideal S1024x128 .bf16) (k : Fin 128) (q : Fin 1024) :
    transpose S128x1024 [1, 0] b transposes_S1024x128_p1_0_S128x1024 (ix2 k q) = b (ix2 q k) :=
  transpose_apply [1, 0] b transposes_S1024x128_p1_0_S128x1024 (ix2 k q) (ix2 q k) (fun d => match d with
    | ⟨0, _⟩ => rfl
    | ⟨1, _⟩ => rfl)

/-- The block product of the first operand block with the transposed second one, entry (p, q): the inner product of row p of
    the first with row q of the second. -/
private theorem prodT_apply (a b : FVec Ideal S1024x128 .bf16) (p q : Fin 1024) :
    matmul dot_S1024x128_S128x1024_S1024x1024_1_0_0_1_n_n none a (transpose S128x1024 [1, 0] b transposes_S1024x128_p1_0_S128x1024)
        (constant (F := Ideal) S1024x1024 .f32 0x00000000#32) (ix2 p q)
      = ∑ k : Fin 128, a (ix2 p k) * b (ix2 q k) :=
  (prod_apply a _ p q).trans (Finset.sum_congr rfl fun k _ => congrArg (a (ix2 p k) * ·) (transposed_apply b k q))

set_option maxHeartbeats 400000 in
/-- The body's arithmetic at entry (p, q) of the output block: the inner product of row p of the first operand block
    with row q of the second, cut at the threshold. -/
private theorem pay1_apply (x0 x1 : FVec Ideal S1024x128 .bf16) (p q : Fin 1024) :
    k1_pay1 (F := Ideal) x0 x1 (ix2 p q) = Cert.Spec.cut (∑ k : Fin 128, x0 (ix2 p k) * x1 (ix2 q k)) := by
  unfold k1_pay1
  dsimp only
  rw [shapeCast_self, shapeCast_self, select_apply, cmpf_apply, broadcast_apply, broadcast_apply, prodT_apply]
  rfl

/-! ## From blocks to the array -/

private theorem hz1 : (![0, 0] : Fin 2 → Nat) = fun _ => 0 := funext fun a => by fin_cases a <;> rfl

/-- Where the three windows' blocks sit at grid point t, decided over the 64 points: the first operand's block is
    row block t / 8, the second operand's is row block t % 8, and the output's block is (t / 8, t % 8). -/
private theorem idx1_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8 :=
  (by decide +kernel : ∀ t : Fin grid1.N, _)

/-- Entry (p, k) of the first operand's block at point t is entry (1024 (t / 8) + p, k) of its array. -/
private theorem iblk0_0_apply (V : (c : Dev nD) → (b : Ref sig .tc) → Buf (Elt Ideal) ((c : Thread nD τ).loc b)) (c : Dev nD) (t : Fin cfg1.N) (p : Fin 1024) (k : Fin 128) (i : S8192x128.Idx)
    (hi0 : (i 0).val = t.val / 8 * 1024 + p.val) (hi1 : (i 1).val = k.val) :
    (iblk1 (F := Ideal) V c 0 t : FVec Ideal S1024x128 .bf16) (ix2 p k) = (V c (Pipeline.arrRef spec1 0) : S8192x128.Idx → EReal) i := by
  obtain ⟨e0, e1, -⟩ := idx1_facts t
  show V c (Pipeline.arrRef spec1 0) (((cfg1.win 0).blk t).view.emb (ix2 p k)) = V c (Pipeline.arrRef spec1 0) i
  refine congrArg _ (funext fun a => Fin.ext ?_)
  match a with
  | ⟨0, _⟩ => show win1_0.index t (0 : Fin 2) * 1024 + 1 * p.val = (i 0).val; omega
  | ⟨1, _⟩ => show win1_0.index t (1 : Fin 2) * 128 + 1 * k.val = (i 1).val; omega

/-- Entry (q, k) of the second operand's block at point t is entry (1024 (t % 8) + q, k) of its array. -/
private theorem iblk0_1_apply (V : (c : Dev nD) → (b : Ref sig .tc) → Buf (Elt Ideal) ((c : Thread nD τ).loc b)) (c : Dev nD) (t : Fin cfg1.N) (q : Fin 1024) (k : Fin 128) (i : S8192x128.Idx)
    (hi0 : (i 0).val = t.val % 8 * 1024 + q.val) (hi1 : (i 1).val = k.val) :
    (iblk1 (F := Ideal) V c 1 t : FVec Ideal S1024x128 .bf16) (ix2 q k) = (V c (Pipeline.arrRef spec1 1) : S8192x128.Idx → EReal) i := by
  obtain ⟨-, -, e2, e3, -⟩ := idx1_facts t
  show V c (Pipeline.arrRef spec1 1) (((cfg1.win 1).blk t).view.emb (ix2 q k)) = V c (Pipeline.arrRef spec1 1) i
  refine congrArg _ (funext fun a => Fin.ext ?_)
  match a with
  | ⟨0, _⟩ => show win1_1.index t (0 : Fin 2) * 1024 + 1 * q.val = (i 0).val; omega
  | ⟨1, _⟩ => show win1_1.index t (1 : Fin 2) * 128 + 1 * k.val = (i 1).val; omega

/-- What point t writes back is its block of the thresholded similarity table of the two operand arrays. -/
private theorem flushed0_eq (V : (c : Dev nD) → (b : Ref sig .tc) → Buf (Elt Ideal) ((c : Thread nD τ).loc b)) (q0 q1 : PosShare TreeShare) (c : Dev nD) (t : Fin cfg1.N) :
    (dat1 (F := Ideal) V q0 q1 c).flushed 2 t
      = ((cfg1.win 2).blk t).view.read (Elt Ideal) (Cert.Spec.simTable (V c (Pipeline.arrRef spec1 0)) (V c (Pipeline.arrRef spec1 1))) := by
  show (cfg1.win 2).cut (grid1.coords t) ((dat1 (F := Ideal) V q0 q1 c).after 2 t) = _
  rw [after1_2]
  unfold out1_2
  rw [View.canon_unit_zero hz1]
  simp only [View.ld_unit_zero (S := S1024x128) hz1]
  obtain ⟨-, -, -, -, e4, e5⟩ := idx1_facts t
  funext j
  have hp : (j 0).val < 1024 := (j 0).isLt
  have hq : (j 1).val < 1024 := (j 1).isLt
  have hx : (cfg1.win 2).xinj (grid1.coords t) j = ix2 (⟨(j 0).val, hp⟩ : Fin 1024) (⟨(j 1).val, hq⟩ : Fin 1024) :=
    funext fun a => match a with | ⟨0, _⟩ => rfl | ⟨1, _⟩ => rfl
  show k1_pay1 (F := Ideal) (iblk1 V c 0 t) (iblk1 V c 1 t) ((cfg1.win 2).xinj (grid1.coords t) j)
    = Cert.Spec.simTable (V c (Pipeline.arrRef spec1 0)) (V c (Pipeline.arrRef spec1 1)) (((cfg1.win 2).blk t).view.emb j)
  rw [hx]
  refine (pay1_apply (iblk1 V c 0 t) (iblk1 V c 1 t) ⟨(j 0).val, hp⟩ ⟨(j 1).val, hq⟩).trans ?_
  show Cert.Spec.cut _ = Cert.Spec.cut _
  refine congrArg Cert.Spec.cut (Finset.sum_congr rfl fun k _ => ?_)
  refine congrArg₂ (fun a b : EReal => a * b)
    (iblk0_0_apply V c t ⟨(j 0).val, hp⟩ k (ix2 ((((cfg1.win 2).blk t).view.emb j) 0) k) ?_ rfl)
    (iblk0_1_apply V c t ⟨(j 1).val, hq⟩ k (ix2 ((((cfg1.win 2).blk t).view.emb j) 1) k) ?_ rfl)
  · show win1_2.index t (0 : Fin 2) * 1024 + 1 * (j 0).val = t.val / 8 * 1024 + (j 0).val; omega
  · show win1_2.index t (1 : Fin 2) * 1024 + 1 * (j 1).val = t.val % 8 * 1024 + (j 1).val; omega

/-- An entry of the output array lies in point t's block iff each coordinate lies in the block's range on its axis. -/
private theorem mem_blk1 (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole (Pipeline.arrRef spec1 2)).slice (win1_2.rect t)).set ↔ _
  rw [View.set_slice_whole, Rect.mem_set_unit]
  exact Iff.rfl

/-- Every entry (r, s) of the output array lies in the block of the point (r / 1024) * 8 + s / 1024, which is written back. -/
private theorem cover0 (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  have hN : cfg1.N = 64 := (by decide : grid1.N = 64)
  have hlt : (i 0).val / 1024 * 8 + (i 1).val / 1024 < cfg1.N := by rw [hN]; omega
  obtain ⟨T, hT⟩ : ∃ T : Fin cfg1.N, T.val = (i 0).val / 1024 * 8 + (i 1).val / 1024 := ⟨⟨_, hlt⟩, rfl⟩
  obtain ⟨-, -, -, -, e4, e5⟩ := idx1_facts T
  refine ⟨T, flush1_2 T, ?_⟩
  rw [mem_blk1]
  intro a
  match a with
  | ⟨0, _⟩ => show win1_2.index T (0 : Fin 2) * 1024 ≤ (i 0).val ∧ (i 0).val < win1_2.index T (0 : Fin 2) * 1024 + 1024; omega
  | ⟨1, _⟩ => show win1_2.index T (1 : Fin 2) * 1024 ≤ (i 1).val ∧ (i 1).val < win1_2.index T (1 : Fin 2) * 1024 + 1024; omega

/-- After all 64 grid points the output array of region 1 holds, at (i, j), the thresholded inner product of row i of the
    first operand array with row j of the second, whatever the region-entry valuation V and the shares. -/
theorem final1 (V : (c : Dev nD) → (b : Ref sig .tc) → Buf (Elt Ideal) ((c : Thread nD τ).loc b)) (q0 q1 : PosShare TreeShare) (c : Dev nD) :
    (dat1 (F := Ideal) V q0 q1 c).arrAt 2 cfg1.N
      = Cert.Spec.simTable (V c (Pipeline.arrRef spec1 0)) (V c (Pipeline.arrRef spec1 1)) :=
  (dat1 (F := Ideal) V q0 q1 c).arrAt_eq_of_cover 2
    (Cert.Spec.simTable (V c (Pipeline.arrRef spec1 0)) (V c (Pipeline.arrRef spec1 1)))
    (fun t _ => flushed0_eq V q0 q1 c t) cover0

end Cert.KernelIdeal.Hand

end
-- ==== Proof.KI.HostVals.lean ====
/-
  What the host operations before the two kernel regions leave in the operand arrays: the row-normalised product tables.
-/
import proofs.«130093_j9259949490946_1_alg».proof.Proof.Gen.KernelIdeal.Regions
import proofs.«130093_j9259949490946_1_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem

/-- The row-normalised product table of two argument arrays, with this program's own shape relations. -/
abbrev norm (x w : FVec Ideal S8192x128 .f32) : FVec Ideal S8192x128 .f32 :=
  Cert.Spec.normalize reducesTo_S8192x128_S8192_d1 h_S_ bcast_S8192_S8192x1_0 bcast_S_S8192x1 bcast_S8192x1_S8192x128_0_1 x w

/-- When region 0 is entered the first operand array holds the row-normalised table of attr1 ⊙ W1 (the change of float
    format is the identity on extended reals). -/
theorem V5_main_v10 (m : (ℓ : Loc nD τ sig) → Buf (Elt Ideal) ℓ) (c : Dev nD) :
    (V5 (F := Ideal) m c (Proc.devRef .tc main_v10) : S8192x128.Idx → EReal)
      = norm (m ((c.tc : Thread nD τ).loc main_arg0)) (m ((c.tc : Thread nD τ).loc main_arg2)) := by
  -- Each host stretch is read operation by operation: an operation's result array holds its function of its operands'
  -- contents and every other array keeps what it held.  The composed term is the row normalisation unfolded, under the
  -- change of float format, which is the identity on extended reals.
  dsimp only [V5, V4, V3, V2, V1, V0]
  simp only [hostOps0, hostOps0_1, hostOps0_2, hostOps0_3, hostOps0_4]
  after_results
  rfl

/-- and the second the row-normalised table of attr2 ⊙ W2. -/
theorem V5_main_v13 (m : (ℓ : Loc nD τ sig) → Buf (Elt Ideal) ℓ) (c : Dev nD) :
    (V5 (F := Ideal) m c (Proc.devRef .tc main_v13) : S8192x128.Idx → EReal)
      = norm (m ((c.tc : Thread nD τ).loc main_arg1)) (m ((c.tc : Thread nD τ).loc main_arg3)) := by
  dsimp only [V5, V4, V3, V2, V1, V0]
  simp only [hostOps0, hostOps0_1, hostOps0_2, hostOps0_3, hostOps0_4]
  after_results
  rfl

end Cert.KernelIdeal.Hand

end
-- ==== Proof.KI.Value.lean ====
/-
  The two result arrays of the idealized kernel program as the specification's similarity tables of the argument arrays.

  Region 0 leaves the thresholded inner products of the rows of its two operand arrays, which the host stretches made the
  row-normalised tables of attr1 ⊙ W1 and attr2 ⊙ W2; region 1 reads the first of these through both operand windows (region 0
  changed only its own output array) and leaves that table's inner products with itself.
-/
import proofs.«130093_j9259949490946_1_alg».proof.Proof.KI.Regs
import proofs.«130093_j9259949490946_1_alg».proof.Proof.KI.Final0
import proofs.«130093_j9259949490946_1_alg».proof.Proof.KI.Final1
import proofs.«130093_j9259949490946_1_alg».proof.Proof.KI.HostVals

noncomputable section

namespace Cert.KernelIdeal.Hand

open Cert.KernelIdeal Cert.KernelIdeal.Gen
open Idealize.ShloMosaic Idealize.ShloMosaic.TcCoe
open Idealize.SL Idealize.SL.RA Idealize.SL.Sem

variable (m : (ℓ : Loc nD τ sig) → Buf (Elt Ideal) ℓ)

/-- Region 0 does not touch the first operand array. -/
theorem val1_main_v10 (c : Dev nD) : val1 m c main_v10 = V5 m c main_v10 := by
  show Function.update (V5 m c) main_v14 (res0 m c) main_v10 = _
  rw [Function.update_of_ne (StableHlo.devRef_ne_of_ne (by decide) : (Proc.devRef .tc main_v10 : DevRef τ sig) ≠ Proc.devRef .tc main_v14)]

/-- The first similarity table (rows of attr1 ⊙ W1 against rows of attr2 ⊙ W2). -/
theorem res0_eq (c : Dev nD) :
    (res0 m c : S8192x8192.Idx → EReal)
      = Cert.Spec.simTable (norm (m ((c.tc : Thread nD τ).loc main_arg0)) (m ((c.tc : Thread nD τ).loc main_arg2)))
          (norm (m ((c.tc : Thread nD τ).loc main_arg1)) (m ((c.tc : Thread nD τ).loc main_arg3))) :=
  (final0 (ent0 m) fullShare fullShare c).trans (congrArg₂ Cert.Spec.simTable (V5_main_v10 m c) (V5_main_v13 m c))

/-- The second similarity table (rows of attr1 ⊙ W1 against themselves). -/
theorem res1_eq (c : Dev nD) :
    (res1 m c : S8192x8192.Idx → EReal)
      = Cert.Spec.simTable (norm (m ((c.tc : Thread nD τ).loc main_arg0)) (m ((c.tc : Thread nD τ).loc main_arg2)))
          (norm (m ((c.tc : Thread nD τ).loc main_arg0)) (m ((c.tc : Thread nD τ).loc main_arg2))) :=
  (final1 (ent1 m) fullShare.left fullShare.right c).trans
    (congrArg₂ Cert.Spec.simTable ((val1_main_v10 m c).trans (V5_main_v10 m c)) ((val1_main_v10 m c).trans (V5_main_v10 m c)))

end Cert.KernelIdeal.Hand

end
-- ==== Proof.Ref.lean ====
/-
  The reference program read as the mathematics of Spec.lean.
-/
import proofs.«130093_j9259949490946_1_alg».proof.Proof.Gen.ReferenceIdeal.Run
import proofs.«130093_j9259949490946_1_alg».proof.Proof.Gen.ReferenceIdeal.Read
import proofs.«130093_j9259949490946_1_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

/-- The row-normalised product table of two argument arrays, with the reference program's own shape relations. -/
abbrev norm (x w : FVec Ideal S8192x128 .f32) : FVec Ideal S8192x128 .f32 :=
  Cert.Spec.normalize reducesTo_S8192x128_S8192_d1 h_S_ bcast_S8192_S8192x1_0 bcast_S_S8192x1 bcast_S8192x1_S8192x128_0_1 x w

/-- The host's matrix product of a table A with a transposed table T, read at one index: the contracted axis is the
    second axis of A and the first axis of T, so the element at (r, c) is the sum over k of A (r, k) · T (k, c). -/
private theorem dot_apply (A : FVec Ideal S8192x128 .f32) (T : FVec Ideal S128x8192 .f32) (r c : Fin 8192) :
    Host.dotGeneral (F := Ideal) dot_S8192x128_S128x8192_S8192x8192_1_0_0_1_n_n none A T (ix2 r c)
      = ∑ k : Fin 128, A (ix2 r k) * T (ix2 k c) := by
  simp only [Host.dotGeneral]
  rw [Ideal.dotGeneral_apply, ← Equiv.sum_comp (contrEquiv1 dot_S8192x128_S128x8192_S8192x8192_1_0_0_1_n_n 128 rfl rfl).symm]
  refine Finset.sum_congr rfl fun k _ => ?_
  have hk := contrEquiv1_symm_val dot_S8192x128_S128x8192_S8192x8192_1_0_0_1_n_n 128 rfl rfl k
  have el : dot_S8192x128_S128x8192_S8192x8192_1_0_0_1_n_n.lhsIdx (ix2 r c) ((contrEquiv1 dot_S8192x128_S128x8192_S8192x8192_1_0_0_1_n_n 128 rfl rfl).symm k) = ix2 r k :=
    funext fun a => Fin.ext (by
      match a with
      | ⟨0, _⟩ => exact Read.lhs_main_v13_0 _ _
      | ⟨1, _⟩ => exact (Read.lhs_main_v13_1 _ _).trans hk)
  have er : dot_S8192x128_S128x8192_S8192x8192_1_0_0_1_n_n.rhsIdx (ix2 r c) ((contrEquiv1 dot_S8192x128_S128x8192_S8192x8192_1_0_0_1_n_n 128 rfl rfl).symm k) = ix2 k c :=
    funext fun a => Fin.ext (by
      match a with
      | ⟨0, _⟩ => exact (Read.rhs_main_v13_0 _ _).trans hk
      | ⟨1, _⟩ => exact Read.rhs_main_v13_1 _ _)
  rw [el, er]

/-- The transposed table at (k, c) is the table at (c, k). -/
private theorem transpose_read (B : FVec Ideal S8192x128 .f32) (k : Fin 128) (c : Fin 8192) :
    transpose S128x8192 [1, 0] B transposes_S8192x128_S128x8192_1_0 (ix2 k c) = B (ix2 c k) :=
  transpose_apply [1, 0] B transposes_S8192x128_S128x8192_1_0 (ix2 k c) (ix2 c k) (fun b => match b with
    | ⟨0, _⟩ => rfl
    | ⟨1, _⟩ => rfl)

/-- A scalar broadcast to the whole similarity table reads, at every index, as the scalar. -/
private theorem bcast_read (y : FVec Ideal S_ .f32) (j : S8192x8192.Idx) :
    broadcastInDim S8192x8192 ![] bcast_S_S8192x8192 y j = y ix0 :=
  broadcastInDim_apply _ bcast_S_S8192x8192 y j ix0 (fun a => a.elim0)

/-- The matrix product of A with the transpose of B at (r, c): the inner product of row r of A with row c of B. -/
private theorem dotT_apply (A B : FVec Ideal S8192x128 .f32) (r c : Fin 8192) :
    Host.dotGeneral (F := Ideal) dot_S8192x128_S128x8192_S8192x8192_1_0_0_1_n_n none A (transpose S128x8192 [1, 0] B transposes_S8192x128_S128x8192_1_0) (ix2 r c)
      = ∑ k : Fin 128, A (ix2 r k) * B (ix2 c k) := by
  rw [dot_apply]
  exact Finset.sum_congr rfl fun k _ => congrArg (A (ix2 r k) * ·) (transpose_read B k c)

/-- The host's matrix product of A with the transpose of B, compared against the threshold and zeroed below it, is the
    thresholded table of inner products of rows. -/
theorem sim_eq (A B : FVec Ideal S8192x128 .f32) :
    select (cmpf .olt (Host.dotGeneral dot_S8192x128_S128x8192_S8192x8192_1_0_0_1_n_n none A (transpose S128x8192 [1, 0] B transposes_S8192x128_S128x8192_1_0))
        (broadcastInDim S8192x8192 ![] bcast_S_S8192x8192 (constant (F := Ideal) S_ .f32 0x3F666666#32)))
      (broadcastInDim S8192x8192 ![] bcast_S_S8192x8192 (id (constant (F := Ideal) S_ .f32 0x00000000#32)))
      (Host.dotGeneral dot_S8192x128_S128x8192_S8192x8192_1_0_0_1_n_n none A (transpose S128x8192 [1, 0] B transposes_S8192x128_S128x8192_1_0))
    = Cert.Spec.simTable A B := by
  funext j
  obtain ⟨r, c, rfl⟩ : ∃ r c : Fin 8192, j = ix2 r c := ⟨j 0, j 1, eq_ix2 j⟩
  rw [select_apply, cmpf_apply, dotT_apply, bcast_read, bcast_read]
  rfl

/-- The reference's run with both results named by the specification. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
          = Cert.Spec.simTable (norm (m ((c.tc : Thread nD τ).loc main_arg0)) (m ((c.tc : Thread nD τ).loc main_arg2)))
              (norm (m ((c.tc : Thread nD τ).loc main_arg0)) (m ((c.tc : Thread nD τ).loc main_arg2)))
      ∧ r.2.mem ((c.tc : Thread nD τ).loc main_v16)
          = Cert.Spec.simTable (norm (m ((c.tc : Thread nD τ).loc main_arg0)) (m ((c.tc : Thread nD τ).loc main_arg2)))
              (norm (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (sim_eq _ _), (h c).2.1.trans (sim_eq _ _), (h c).2.2⟩)
    (Cert.ReferenceIdeal.Value.run (F := Ideal) m ρ)

end Cert.RefSide

end
-- ==== Proof.lean ====
/-
  The certificate: a kernel that forms two thresholded cosine-similarity tables on the matrix unit, tile by tile, against the
  plain reference.

  Both programs first scale the two attribute tables elementwise by their weights and divide every row by the larger of its
  Euclidean norm and a small floor (host operations, the same ones on both sides).  The reference then multiplies the first
  normalised table with the transpose of the second (and with its own transpose), and zeroes every entry below the threshold.
  The kernel does the same on 1024 x 1024 output blocks in two pipelined regions of an 8 x 8 grid each: a block is the matrix
  product of a 1024 x 128 row block with the transpose of another, thresholded entry by entry.  On the extended reals the
  change of float format before the kernel is the identity, a matrix product into a zero accumulator is the sum of products,
  and the blocks tile the table, so entry (i, j) of either result is, on both sides, the thresholded inner product of row i
  with row j: no law beyond reading both sides at an index is needed, and the precondition is never opened.

  The frames: the reference is a straight line of host operations; each kernel program is five host stretches and two
  pipelined regions, the second of which reads ONE array through both of its operand windows (the array's full share is dealt
  in halves to the two windows and joined at the region's exit).  The ideal pass rewrote nothing, so the idealization claim
  is trivial.
-/
import proofs.«130093_j9259949490946_1_alg».proof.Defs
import proofs.«130093_j9259949490946_1_alg».proof.Proof.Gen.Kernel
import proofs.«130093_j9259949490946_1_alg».proof.Proof.Gen.KernelIdeal
import proofs.«130093_j9259949490946_1_alg».proof.Proof.Gen.ReferenceIdeal
import proofs.«130093_j9259949490946_1_alg».proof.Proof.Gen.Pre_finite_inputs
import proofs.«130093_j9259949490946_1_alg».proof.Proof.K.Regs
import proofs.«130093_j9259949490946_1_alg».proof.Proof.KI.Regs
import proofs.«130093_j9259949490946_1_alg».proof.Proof.KI.RunValues
import proofs.«130093_j9259949490946_1_alg».proof.Proof.KI.Value
import proofs.«130093_j9259949490946_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is a straight line of host operations: its run with the results dropped. -/
theorem frame_ri : Cert.frame_ReferenceIdeal := fun m ρ _ =>
  (θ_run Cert.ReferenceIdeal.defs _ _).mono (fun _ h c => (h c).2.2) (Cert.RefSide.run m ρ)

/-- Run from memories that agree on the four arguments, both programs end with the same two similarity tables: each side's
    result is the specification's table of the row-normalised arguments, and the row normalisations agree because the
    arguments do. -/
theorem algebraic : Cert.algebraic_KernelIdeal_ReferenceIdeal := by
  intro m ρ m' ρ' _ hagree
  refine ⟨fun c => Cert.Spec.simTable
      (Cert.KernelIdeal.Hand.norm (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.KernelIdeal.Hand.norm (m ((c.tc : Thread Cert.KernelIdeal.nD Cert.KernelIdeal.τ).loc Cert.KernelIdeal.main_arg0)) (m ((c.tc : Thread Cert.KernelIdeal.nD Cert.KernelIdeal.τ).loc Cert.KernelIdeal.main_arg2))),
    fun c => Cert.Spec.simTable
      (Cert.KernelIdeal.Hand.norm (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.KernelIdeal.Hand.norm (m ((c.tc : Thread Cert.KernelIdeal.nD Cert.KernelIdeal.τ).loc Cert.KernelIdeal.main_arg1)) (m ((c.tc : Thread Cert.KernelIdeal.nD Cert.KernelIdeal.τ).loc Cert.KernelIdeal.main_arg3))),
    ?_, ?_⟩
  · exact (θ_run Cert.KernelIdeal.defs _ _).mono
      (fun _ h c => ⟨(h c).1.trans (Cert.KernelIdeal.Hand.res1_eq m c), (h c).2.1.trans (Cert.KernelIdeal.Hand.res0_eq m c), (h c).2.2⟩)
      (Cert.KernelIdeal.Hand.run_values (F := Ideal) m ρ)
  · refine (θ_run Cert.ReferenceIdeal.defs _ _).mono (fun _ h c => ⟨(h c).1.trans ?_, (h c).2.1.trans ?_, (h c).2.2⟩)
      (Cert.RefSide.run m' ρ')
    · rw [(hagree c).1, (hagree c).2.2.1]
    · rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
